-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64 : Shape := ⟨3, ![8, 256, 64]⟩
abbrev S8x256x256x64 : Shape := ⟨4, ![8, 256, 256, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S256x256 : Shape := ⟨2, ![256, 256]⟩
abbrev S256 : Shape := ⟨1, ![256]⟩
abbrev S256x64 : Shape := ⟨2, ![256, 64]⟩
abbrev S_ : Shape := ⟨0, ![]⟩

class Facts : Prop where
  bcast_S_S8x256x64 : S_.BroadcastsInDim S8x256x64 (![] : Fin 0 → Fin S8x256x64.rank)
  reducesTo_S8x256x64_S_d0_1_2 : S8x256x64.ReducesTo [0, 1, 2] S_
  h_S_ : 0 < S_.numel
  bcast_S_S8x256x256x64 : S_.BroadcastsInDim S8x256x256x64 (![] : Fin 0 → Fin S8x256x256x64.rank)
  reducesTo_S8x256x256x64_S_d0_1_2_3 : S8x256x256x64.ReducesTo [0, 1, 2, 3] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_

variable [Facts]

def fn_part2 {F : FTy → Type} [FloatOps F] (main_arg7 : FVec F S256 .f32) (main_arg8 : FVec F S256x64 .f32) (main_arg9 : FVec F S64 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x64 .f32) (main_arg5 : FVec F S64 .f32) (main_arg6 : FVec F S256x256 .f32) (main_arg7 : FVec F S256 .f32) (main_arg8 : FVec F S256x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x256x64 .f32) (main_arg1 : FVec F S8x256x256x64 .f32) (main_arg2 : FVec F S192x128 .f32) (main_arg3 : FVec F S128 .f32) (main_arg4 : FVec F S128x64 .f32) (main_arg5 : FVec F S64 .f32) (main_arg6 : FVec F S256x256 .f32) (main_arg7 : FVec F S256 .f32) (main_arg8 : FVec F S256x64 .f32) (main_arg9 : FVec F S64 .f32) : IVec S_ 1 :=
  let main_v0 : FVec F S8x256x64 .f32 := Host.absf main_arg0
  let main_cst : FVec F S_ .f32 := constant S_ .f32 0x7F800000#32
  let main_v1 : FVec F S8x256x64 .f32 := broadcastInDim S8x256x64 ![] bcast_S_S8x256x64 main_cst
  let main_v2 : IVec S8x256x64 1 := cmpf .olt main_v0 main_v1
  let main_c : IVec S_ 1 := constantI S_ 1 1#1
  let main_v3 : IVec S_ 1 := (fun x v => Host.reduce IntOp.andi x v reducesTo_S8x256x64_S_d0_1_2 h_S_) main_v2 main_c
  let main_v4 : FVec F S8x256x256x64 .f32 := Host.absf main_arg1
  let main_cst_0 : FVec F S_ .f32 := constant S_ .f32 0x7F800000#32
  let main_v5 : FVec F S8x256x256x64 .f32 := broadcastInDim S8x256x256x64 ![] bcast_S_S8x256x256x64 main_cst_0
  let main_v6 : IVec S8x256x256x64 1 := cmpf .olt main_v4 main_v5
  let main_c_1 : IVec S_ 1 := constantI S_ 1 1#1
  let main_v7 : IVec S_ 1 := (fun x v => Host.reduce IntOp.andi x v reducesTo_S8x256x256x64_S_d0_1_2_3 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S8x256x64 : Shape := ⟨3, ![8, 256, 64]⟩
abbrev S8x256x256x64 : Shape := ⟨4, ![8, 256, 256, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S256x256 : Shape := ⟨2, ![256, 256]⟩
abbrev S256 : Shape := ⟨1, ![256]⟩
abbrev S256x64 : Shape := ⟨2, ![256, 64]⟩
abbrev S1x32x64 : Shape := ⟨3, ![1, 32, 64]⟩
abbrev S1x256x64 : Shape := ⟨3, ![1, 256, 64]⟩
abbrev S1x32x256x64 : Shape := ⟨4, ![1, 32, 256, 64]⟩
abbrev S1x256x32x64 : Shape := ⟨4, ![1, 256, 32, 64]⟩
abbrev S32x64 : Shape := ⟨2, ![32, 64]⟩
abbrev S32x256x64 : Shape := ⟨3, ![32, 256, 64]⟩
abbrev S256x32x64 : Shape := ⟨3, ![256, 32, 64]⟩
abbrev S32x192 : Shape := ⟨2, ![32, 192]⟩
abbrev S32x128 : Shape := ⟨2, ![32, 128]⟩
abbrev S1x128 : Shape := ⟨2, ![1, 128]⟩
abbrev S1x64 : Shape := ⟨2, ![1, 64]⟩
abbrev S32x1x64 : Shape := ⟨3, ![32, 1, 64]⟩
abbrev S32x256x256 : Shape := ⟨3, ![32, 256, 256]⟩
abbrev S8192x256 : Shape := ⟨2, ![8192, 256]⟩
abbrev S1x256 : Shape := ⟨2, ![1, 256]⟩
abbrev S8192x64 : Shape := ⟨2, ![8192, 64]⟩

abbrev nBuf : Space → Nat
  | .hbm => 12
  | .vmem => 20
  | .smem => 0
  | _ => 0

abbrev bufTy : (tb : Table) → Fin (tcTables nBuf tb) → BufTy
  | .hbm, ⟨0, _⟩ => ⟨S8x256x64, .f32⟩
  | .hbm, ⟨1, _⟩ => ⟨S8x256x256x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S8x256x64, .f32⟩
  | .hbm, ⟨11, _⟩ => ⟨S8x256x256x64, .f32⟩
  | .local _ .vmem, ⟨0, _⟩ => ⟨S1x32x64, .f32⟩
  | .local _ .vmem, ⟨1, _⟩ => ⟨S1x32x64, .f32⟩
  | .local _ .vmem, ⟨2, _⟩ => ⟨S1x256x64, .f32⟩
  | .local _ .vmem, ⟨3, _⟩ => ⟨S1x256x64, .f32⟩
  | .local _ .vmem, ⟨4, _⟩ => ⟨S1x32x256x64, .f32⟩
  | .local _ .vmem, ⟨5, _⟩ => ⟨S1x32x256x64, .f32⟩
  | .local _ .vmem, ⟨6, _⟩ => ⟨S1x256x32x64, .f32⟩
  | .local _ .vmem, ⟨7, _⟩ => ⟨S1x256x32x64, .f32⟩
  | .local _ .vmem, ⟨8, _⟩ => ⟨S192x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S256x256, .f32⟩
  | .local _ .vmem, ⟨13, _⟩ => ⟨S256, .f32⟩
  | .local _ .vmem, ⟨14, _⟩ => ⟨S256x64, .f32⟩
  | .local _ .vmem, ⟨15, _⟩ => ⟨S64, .f32⟩
  | .local _ .vmem, ⟨16, _⟩ => ⟨S1x32x64, .f32⟩
  | .local _ .vmem, ⟨17, _⟩ => ⟨S1x32x64, .f32⟩
  | .local _ .vmem, ⟨18, _⟩ => ⟨S1x32x256x64, .f32⟩
  | .local _ .vmem, ⟨19, _⟩ => ⟨S1x32x256x64, .f32⟩
  | _, _ => ⟨S8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x32x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x32x256x64_S1x32x256x64_0_0_0_0 : ∀ a, (![0, 0, 0, 0] : Fin 4 → Nat) a + S1x32x256x64.size a ≤ S1x32x256x64.size a
  h_S1x32x256x64 : 0 < S1x32x256x64.numel
  shapeCasts_S1x32x256x64_S32x256x64 : S1x32x256x64.ShapeCasts S32x256x64
  inb_S1x256x32x64_S1x256x32x64_0_0_0_0 : ∀ a, (![0, 0, 0, 0] : Fin 4 → Nat) a + S1x256x32x64.size a ≤ S1x256x32x64.size a
  h_S1x256x32x64 : 0 < S1x256x32x64.numel
  shapeCasts_S1x256x32x64_S256x32x64 : S1x256x32x64.ShapeCasts S256x32x64
  transposes_S256x32x64_p1_0_2_S32x256x64 : S256x32x64.Transposes [1, 0, 2] S32x256x64
  reduces_S32x256x64_S32x64 : S32x256x64.Reduces [1] S32x64
  concatenates_S32x64_S32x64_S32x64_S32x192_d1 : Shape.Concatenates [S32x64, S32x64, S32x64] S32x192 1
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S128_S128_0 : ∀ a, (![0] : Fin 1 → Nat) a + S128.size a ≤ S128.size a
  h_S128 : 0 < S128.numel
  shapeCasts_S128_S1x128 : S128.ShapeCasts S1x128
  broadcasts_S1x128_S32x128 : S1x128.Broadcasts S32x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S32x64 : S1x64.Broadcasts S32x64
  shapeCasts_S32x64_S1x32x64 : S32x64.ShapeCasts S1x32x64
  shapeCasts_S256x64_S1x256x64 : S256x64.ShapeCasts S1x256x64
  shapeCasts_S1x256x64_S1x256x64 : S1x256x64.ShapeCasts S1x256x64
  broadcasts_S1x256x64_S32x256x64 : S1x256x64.Broadcasts S32x256x64
  shapeCasts_S32x64_S32x1x64 : S32x64.ShapeCasts S32x1x64
  shapeCasts_S32x1x64_S32x1x64 : S32x1x64.ShapeCasts S32x1x64
  broadcasts_S32x1x64_S32x256x64 : S32x1x64.Broadcasts S32x256x64
  concatenates_S32x256x64_S32x256x64_S32x256x64_S32x256x64_S32x256x256_d2 : Shape.Concatenates [S32x256x64, S32x256x64, S32x256x64, S32x256x64] S32x256x256 2
  shapeCasts_S32x256x256_S8192x256 : S32x256x256.ShapeCasts S8192x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S8192x256 : S1x256.Broadcasts S8192x256
  inb_S256x64_S256x64_0_0 : ∀ a, (![0, 0] : Fin 2 → Nat) a + S256x64.size a ≤ S256x64.size a
  h_S256x64 : 0 < S256x64.numel
  broadcasts_S1x64_S8192x64 : S1x64.Broadcasts S8192x64
  shapeCasts_S8192x64_S32x256x64 : S8192x64.ShapeCasts S32x256x64
  shapeCasts_S32x256x64_S1x32x256x64 : S32x256x64.ShapeCasts S1x32x256x64
  dot_S32x192_S192x128_S32x128_1_0_0_1_n_n_wf : DotDims.WF S32x192 S192x128 S32x128 [1] [0] [0] [1] [] []
  dot_S32x128_S128x64_S32x64_1_0_0_1_n_n_wf : DotDims.WF S32x128 S128x64 S32x64 [1] [0] [0] [1] [] []
  dot_S8192x256_S256x256_S8192x256_1_0_0_1_n_n_wf : DotDims.WF S8192x256 S256x256 S8192x256 [1] [0] [0] [1] [] []
  dot_S8192x256_S256x64_S8192x64_1_0_0_1_n_n_wf : DotDims.WF S8192x256 S256x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64.size a ≤ S8x256x64.size a
  hwx0_0 : ∀ i : grid0.Coords, EltTy.bits .f32 = 32 ∨ (Rect.block (s := S8x256x64) S1x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S8x256x64.size a
  hwx0_1 : ∀ i : grid0.Coords, EltTy.bits .f32 = 32 ∨ (Rect.block (s := S8x256x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256x64.size a ≤ S8x256x256x64.size a
  hwx0_2 : ∀ i : grid0.Coords, EltTy.bits .f32 = 32 ∨ (Rect.block (s := S8x256x256x64) S1x32x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x32x64.size a ≤ S8x256x256x64.size a
  hwx0_3 : ∀ i : grid0.Coords, EltTy.bits .f32 = 32 ∨ (Rect.block (s := S8x256x256x64) S1x256x32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x128.size a ≤ S192x128.size a
  hwx0_4 : ∀ i : grid0.Coords, EltTy.bits .f32 = 32 ∨ (Rect.block (s := S192x128) S192x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x64.size a ≤ S256x64.size a
  hwx0_10 : ∀ i : grid0.Coords, EltTy.bits .f32 = 32 ∨ (Rect.block (s := S256x64) S256x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x32x64.size a ≤ S8x256x64.size a
  hwx0_12 : ∀ i : grid0.Coords, EltTy.bits .f32 = 32 ∨ (Rect.block (s := S8x256x64) S1x32x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x32x256x64.size a ≤ S8x256x256x64.size a
  hwx0_13 : ∀ i : grid0.Coords, EltTy.bits .f32 = 32 ∨ (Rect.block (s := S8x256x256x64) S1x32x256x64.size (cc0_transform_13 i) (hinb0_13 i)).WholeWords (EltTy.packing .f32)

variable [Facts₀]

def dot_S32x192_S192x128_S32x128_1_0_0_1_n_n : DotDims S32x192 S192x128 S32x128 where
  lhsContracting := [1]
  rhsContracting := [0]
  lhsNonContracting := [0]
  rhsNonContracting := [1]
  lhsBatch := []
  rhsBatch := []
  wf := dot_S32x192_S192x128_S32x128_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

abbrev win0_0 : Pipeline.Window sig grid0 :=
  Pipeline.Window.ofSpec (Memref.whole main_arg0) S1x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x256x32x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S192x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S256x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S1x32x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S1x32x256x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8x256x64 : Shape := ⟨3, ![8, 256, 64]⟩
abbrev S8x256x256x64 : Shape := ⟨4, ![8, 256, 256, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S256x256 : Shape := ⟨2, ![256, 256]⟩
abbrev S256 : Shape := ⟨1, ![256]⟩
abbrev S256x64 : Shape := ⟨2, ![256, 64]⟩
abbrev S_ : Shape := ⟨0, ![]⟩
abbrev S8x256x192 : Shape := ⟨3, ![8, 256, 192]⟩
abbrev S8x256x1x64 : Shape := ⟨4, ![8, 256, 1, 64]⟩
abbrev S8x256x256x128 : Shape := ⟨4, ![8, 256, 256, 128]⟩
abbrev S8x256x256x256 : Shape := ⟨4, ![8, 256, 256, 256]⟩
abbrev S8x256x128 : Shape := ⟨3, ![8, 256, 128]⟩
abbrev S1x1x128 : Shape := ⟨3, ![1, 1, 128]⟩
abbrev S1x1x64 : Shape := ⟨3, ![1, 1, 64]⟩
abbrev S1x1x1x256 : Shape := ⟨4, ![1, 1, 1, 256]⟩
abbrev S1x1x1x64 : Shape := ⟨4, ![1, 1, 1, 64]⟩

abbrev nBuf : Space → Nat
  | .hbm => 42
  | .vmem => 0
  | .smem => 0
  | _ => 0

abbrev bufTy : (tb : Table) → Fin (tcTables nBuf tb) → BufTy
  | .hbm, ⟨0, _⟩ => ⟨S8x256x64, .f32⟩
  | .hbm, ⟨1, _⟩ => ⟨S8x256x256x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S_, .f32⟩
  | .hbm, ⟨11, _⟩ => ⟨S8x256x64, .f32⟩
  | .hbm, ⟨12, _⟩ => ⟨S_, .f32⟩
  | .hbm, ⟨13, _⟩ => ⟨S8x256x64, .f32⟩
  | .hbm, ⟨14, _⟩ => ⟨S8x256x192, .f32⟩
  | .hbm, ⟨15, _⟩ => ⟨S8x256x1x64, .f32⟩
  | .hbm, ⟨16, _⟩ => ⟨S8x256x256x64, .f32⟩
  | .hbm, ⟨17, _⟩ => ⟨S8x256x256x128, .f32⟩
  | .hbm, ⟨18, _⟩ => ⟨S8x256x256x128, .f32⟩
  | .hbm, ⟨19, _⟩ => ⟨S8x256x256x256, .f32⟩
  | .hbm, ⟨20, _⟩ => ⟨S8x256x128, .f32⟩
  | .hbm, ⟨21, _⟩ => ⟨S1x1x128, .f32⟩
  | .hbm, ⟨22, _⟩ => ⟨S8x256x128, .f32⟩
  | .hbm, ⟨23, _⟩ => ⟨S8x256x128, .f32⟩
  | .hbm, ⟨24, _⟩ => ⟨S_, .f32⟩
  | .hbm, ⟨25, _⟩ => ⟨S8x256x128, .f32⟩
  | .hbm, ⟨26, _⟩ => ⟨S8x256x128, .f32⟩
  | .hbm, ⟨27, _⟩ => ⟨S8x256x64, .f32⟩
  | .hbm, ⟨28, _⟩ => ⟨S1x1x64, .f32⟩
  | .hbm, ⟨29, _⟩ => ⟨S8x256x64, .f32⟩
  | .hbm, ⟨30, _⟩ => ⟨S8x256x64, .f32⟩
  | .hbm, ⟨31, _⟩ => ⟨S8x256x256x256, .f32⟩
  | .hbm, ⟨32, _⟩ => ⟨S1x1x1x256, .f32⟩
  | .hbm, ⟨33, _⟩ => ⟨S8x256x256x256, .f32⟩
  | .hbm, ⟨34, _⟩ => ⟨S8x256x256x256, .f32⟩
  | .hbm, ⟨35, _⟩ => ⟨S_, .f32⟩
  | .hbm, ⟨36, _⟩ => ⟨S8x256x256x256, .f32⟩
  | .hbm, ⟨37, _⟩ => ⟨S8x256x256x256, .f32⟩
  | .hbm, ⟨38, _⟩ => ⟨S8x256x256x64, .f32⟩
  | .hbm, ⟨39, _⟩ => ⟨S1x1x1x64, .f32⟩
  | .hbm, ⟨40, _⟩ => ⟨S8x256x256x64, .f32⟩
  | .hbm, ⟨41, _⟩ => ⟨S8x256x256x64, .f32⟩
  | _, _ => ⟨S8x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  reducesTo_S8x256x256x64_S8x256x64_d2 : S8x256x256x64.ReducesTo [2] S8x256x64
  h_S_ : 0 < S_.numel
  concatenates_S8x256x64_S8x256x64_S8x256x64_S8x256x192_d2 : Shape.Concatenates [S8x256x64, S8x256x64, S8x256x64] S8x256x192 2
  bcast_S8x256x64_S8x256x1x64_0_1_3 : S8x256x64.BroadcastsInDim S8x256x1x64 (![0, 1, 3] : Fin 3 → Fin S8x256x1x64.rank)
  bcast_S8x256x1x64_S8x256x256x64_0_1_2_3 : S8x256x1x64.BroadcastsInDim S8x256x256x64 (![0, 1, 2, 3] : Fin 4 → Fin S8x256x256x64.rank)
  concatenates_S8x256x256x64_S8x256x256x64_S8x256x256x128_d3 : Shape.Concatenates [S8x256x256x64, S8x256x256x64] S8x256x256x128 3
  transposes_S8x256x256x128_S8x256x256x128_0_2_1_3 : S8x256x256x128.Transposes [0, 2, 1, 3] S8x256x256x128
  concatenates_S8x256x256x128_S8x256x256x128_S8x256x256x256_d3 : Shape.Concatenates [S8x256x256x128, S8x256x256x128] S8x256x256x256 3
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  bcast_S_S8x256x128 : S_.BroadcastsInDim S8x256x128 (![] : Fin 0 → Fin S8x256x128.rank)
  bcast_S64_S1x1x64_2 : S64.BroadcastsInDim S1x1x64 (![2] : Fin 1 → Fin S1x1x64.rank)
  bcast_S1x1x64_S8x256x64_0_1_2 : S1x1x64.BroadcastsInDim S8x256x64 (![0, 1, 2] : Fin 3 → Fin S8x256x64.rank)
  bcast_S256_S1x1x1x256_3 : S256.BroadcastsInDim S1x1x1x256 (![3] : Fin 1 → Fin S1x1x1x256.rank)
  bcast_S1x1x1x256_S8x256x256x256_0_1_2_3 : S1x1x1x256.BroadcastsInDim S8x256x256x256 (![0, 1, 2, 3] : Fin 4 → Fin S8x256x256x256.rank)
  bcast_S_S8x256x256x256 : S_.BroadcastsInDim S8x256x256x256 (![] : Fin 0 → Fin S8x256x256x256.rank)
  bcast_S64_S1x1x1x64_3 : S64.BroadcastsInDim S1x1x1x64 (![3] : Fin 1 → Fin S1x1x1x64.rank)
  bcast_S1x1x1x64_S8x256x256x64_0_1_2_3 : S1x1x1x64.BroadcastsInDim S8x256x256x64 (![0, 1, 2, 3] : Fin 4 → Fin S8x256x256x64.rank)
  dot_S8x256x192_S192x128_S8x256x128_2_0_01_1_n_n_wf : DotDims.WF S8x256x192 S192x128 S8x256x128 [2] [0] [0, 1] [1] [] []
  dot_S8x256x128_S128x64_S8x256x64_2_0_01_1_n_n_wf : DotDims.WF S8x256x128 S128x64 S8x256x64 [2] [0] [0, 1] [1] [] []
  dot_S8x256x256x256_S256x256_S8x256x256x256_3_0_012_1_n_n_wf : DotDims.WF S8x256x256x256 S256x256 S8x256x256x256 [3] [0] [0, 1, 2] [1] [] []
  dot_S8x256x256x256_S256x64_S8x256x256x64_3_0_012_1_n_n_wf : DotDims.WF S8x256x256x256 S256x64 S8x256x256x64 [3] [0] [0, 1, 2] [1] [] []

variable [Facts₀]

def dot_S8x256x192_S192x128_S8x256x128_2_0_01_1_n_n : DotDims S8x256x192 S192x128 S8x256x128 where
  lhsContracting := [2]
  rhsContracting := [0]
  lhsNonContracting := [0, 1]
  rhsNonContracting := [1]
  lhsBatch := []
  rhsBatch := []
  wf := dot_S8x256x192_S192x128_S8x256x128_2_0_01_1_n_n_wf
def dot_S8x256x128_S128x64_S8x256x64_2_0_01_1_n_n : DotDims S8x256x128 S128x64 S8x256x64 where
  lhsContracting := [2]
  rhsContracting := [0]
  lhsNonContracting := [0, 1]
  rhsNonContracting := [1]
  lhsBatch := []
  rhsBatch := []
  wf := dot_S8x256x128_S128x64_S8x256x64_2_0_01_1_n_n_wf
def dot_S8x256x256x256_S256x256_S8x256x256x256_3_0_012_1_n_n : DotDims S8x256x256x256 S256x256 S8x256x256x256 where
  lhsContracting := [3]
  rhsContracting := [0]
  lhsNonContracting := [0, 1, 2]
  rhsNonContracting := [1]
  lhsBatch := []
  rhsBatch := []
  wf := dot_S8x256x256x256_S256x256_S8x256x256x256_3_0_012_1_n_n_wf
def dot_S8x256x256x256_S256x64_S8x256x256x64_3_0_012_1_n_n : DotDims S8x256x256x256 S256x64 S8x256x256x64 where
  lhsContracting := [3]
  rhsContracting := [0]
  lhsNonContracting := [0, 1, 2]
  rhsNonContracting := [1]
  lhsBatch := []
  rhsBatch := []
  wf := dot_S8x256x256x256_S256x64_S8x256x256x64_3_0_012_1_n_n_wf

class Facts : Prop extends Facts₀ where

variable [Facts]
-- ==== Proof.RegionBits.lean ====
/-
  The run of `Kernel`'s one kernel region, for any float instance `F`.

  The region has fourteen windows on twelve arrays: the entity embedding `emb1` is read through two windows (a tile of
  32 rows, and all 256 rows of the batch), the pair embedding `emb2` through two (a tile of 32 rows in the order
  (i, j), and the same tile in the order (j, i)); the eight weight and bias arrays are read whole; the two results are
  written tile by tile.  An array read through two windows is held by each at one half of the full share, which is
  all a read needs; the results are held whole.

  At every grid point the body loads the twelve input blocks whole and stores each result block whole, so what it
  leaves in a result window's buffer is one pure function of the twelve input blocks (`out12`, `out13`, over the
  skeleton's payloads).  From this: the proof data of the pipeline, the body's triple, how the launch's whole arrays
  split into the windows' shares, the run with every window's array named after it, and the frame.
-/
import proofs.«177152_j25348896981151_1_alg».proof.Proof.Gen.Kernel.Launch
import proofs.«177152_j25348896981151_1_alg».proof.Proof.Gen.Kernel.Skeleton
import proofs.«177152_j25348896981151_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and a window's block at a point -/

/-- @main is the region alone, so the region finds every array as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`: the rectangle of its array that the index map selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is of a whole buffer -/

abbrev rRow : Rect S1x32x64 := Rect.unit (s := S1x32x64) ![0, 0, 0] S1x32x64.size inb_S1x32x64_S1x32x64_0_0_0
abbrev rAll : Rect S1x256x64 := Rect.unit (s := S1x256x64) ![0, 0, 0] S1x256x64.size inb_S1x256x64_S1x256x64_0_0_0
abbrev rPair : Rect S1x32x256x64 := Rect.unit (s := S1x32x256x64) ![0, 0, 0, 0] S1x32x256x64.size inb_S1x32x256x64_S1x32x256x64_0_0_0_0
abbrev rPairT : Rect S1x256x32x64 := Rect.unit (s := S1x256x32x64) ![0, 0, 0, 0] S1x256x32x64.size inb_S1x256x32x64_S1x256x32x64_0_0_0_0
abbrev rW1a : Rect S192x128 := Rect.unit (s := S192x128) ![0, 0] S192x128.size inb_S192x128_S192x128_0_0
abbrev rB1a : Rect S128 := Rect.unit (s := S128) ![0] S128.size inb_S128_S128_0
abbrev rW1b : Rect S128x64 := Rect.unit (s := S128x64) ![0, 0] S128x64.size inb_S128x64_S128x64_0_0
abbrev rB64 : Rect S64 := Rect.unit (s := S64) ![0] S64.size inb_S64_S64_0
abbrev rW2a : Rect S256x256 := Rect.unit (s := S256x256) ![0, 0] S256x256.size inb_S256x256_S256x256_0_0
abbrev rB2a : Rect S256 := Rect.unit (s := S256) ![0] S256.size inb_S256_S256_0
abbrev rW2b : Rect S256x64 := Rect.unit (s := S256x64) ![0, 0] S256x64.size inb_S256x64_S256x64_0_0

/-! ## What the body leaves in each result window's buffer -/

/-- The first result's tile (the entity path): the two-layer perceptron of a tile's rows of `emb1` beside the
    maximum and the minimum over `j` of the tile's rows of `emb2`. -/
def out12 (x0 : Vec F S1x32x64 .f32) (x2 : Vec F S1x32x256x64 .f32) (x4 : Vec F S192x128 .f32) (x5 : Vec F S128 .f32)
    (x6 : Vec F S128x64 .f32) (x7 : Vec F S64 .f32) : Vec F S1x32x64 .f32 :=
  View.canon [⟨rRow, k0_pay1 (k0_pay7 (View.ld x0 rRow) (View.ld x2 rPair) (View.ld x4 rW1a) (View.ld x5 rB1a) (View.ld x6 rW1b) (View.ld x7 rB64))⟩]

/-- The second result's tile (the pair path): the two-layer perceptron of, at (i, j), `emb1` at j, `emb2` at (j, i),
    `emb1` at i and `emb2` at (i, j), side by side. -/
def out13 (x0 : Vec F S1x32x64 .f32) (x1 : Vec F S1x256x64 .f32) (x2 : Vec F S1x32x256x64 .f32) (x3 : Vec F S1x256x32x64 .f32)
    (x8 : Vec F S256x256 .f32) (x9 : Vec F S256 .f32) (x10 : Vec F S256x64 .f32) (x11 : Vec F S64 .f32) : Vec F S1x32x256x64 .f32 :=
  View.canon [⟨rPair, k0_pay2 (k0_pay3 (View.ld x0 rRow)) (k0_pay4 (View.ld x1 rAll)) (k0_pay5 (View.ld x2 rPair)) (k0_pay6 (View.ld x3 rPairT))
    (View.ld x8 rW2a) (View.ld x9 rB2a) (View.ld x10 rW2b) (View.ld x11 rB64)⟩]

theorem cover12 (p0 : Vec F S1x32x64 .f32) (y : S1x32x64.Idx) :
    ∃ pc ∈ ([⟨rRow, p0⟩] : List (View.Piece (Elt F) S1x32x64 .f32)), y ∈ pc.1.set :=
  View.cover_of_tiled [⟨rRow, p0⟩] S1x32x64.size (by rfl) y

theorem cover13 (p0 : Vec F S1x32x256x64 .f32) (y : S1x32x256x64.Idx) :
    ∃ pc ∈ ([⟨rPair, p0⟩] : List (View.Piece (Elt F) S1x32x256x64 .f32)), y ∈ pc.1.set :=
  View.cover_of_tiled [⟨rPair, p0⟩] S1x32x256x64.size (by rfl) y

/-! ## The body's triple -/

set_option maxHeartbeats 4000000 in
/-- On whole buffers, the twelve inputs' at contents `xW` and the two results' at anything, the body runs to the
    inputs' as they were and the results' at `out12`, `out13` of the inputs'. -/
theorem sound_kernel (c : Dev nD) (E : Set ℕ) (i : grid0.Coords) (arg2 : Memref sig .tc .vmem S1x32x64 .f32) (harg2 : arg2.IsWhole) (arg3 : Memref sig .tc .vmem S1x256x64 .f32) (harg3 : arg3.IsWhole) (arg4 : Memref sig .tc .vmem S1x32x256x64 .f32) (harg4 : arg4.IsWhole) (arg5 : Memref sig .tc .vmem S1x256x32x64 .f32) (harg5 : arg5.IsWhole) (arg6 : Memref sig .tc .vmem S192x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256x64 .f32) (harg12 : arg12.IsWhole) (arg13 : Memref sig .tc .vmem S64 .f32) (harg13 : arg13.IsWhole) (arg14 : Memref sig .tc .vmem S1x32x64 .f32) (harg14 : arg14.IsWhole) (arg15 : Memref sig .tc .vmem S1x32x256x64 .f32) (harg15 : arg15.IsWhole)
    (x0 : Vec F S1x32x64 .f32) (x1 : Vec F S1x256x64 .f32) (x2 : Vec F S1x32x256x64 .f32) (x3 : Vec F S1x256x32x64 .f32) (x4 : Vec F S192x128 .f32) (x5 : Vec F S128 .f32) (x6 : Vec F S128x64 .f32) (x7 : Vec F S64 .f32) (x8 : Vec F S256x256 .f32) (x9 : Vec F S256 .f32) (x10 : Vec F S256x64 .f32) (x11 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (out12 x0 x2 x4 x5 x6 x7) ∗ owns (c : Thread nD τ) arg15 fullShare (out13 x0 x1 x2 x3 x8 x9 x10 x11)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover12 _)
  iexists _; isplitr
  swap; · iexact H13
  ipureintro
  try dsimp only
  exact View.read_writes_eq_canon _ _ _ (cover13 _)

/-! ## The pipeline's proof data -/

/-- On core `c`: the arrays as the region finds them; after the body at point `t` every input's buffer at its block
    and each result's at `out12` / `out13` of the input blocks; the invariant the core's scoped buffers that are no
    staging buffer (there is none); nothing owed.  The two windows on `emb1`, and the two on `emb2`, hold their array at
    the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 2 t) (iblk m c 4 t) (iblk m c 5 t) (iblk m c 6 t) (iblk m c 7 t)
    | ⟨13, _⟩ => out13 (iblk m c 0 t) (iblk m c 1 t) (iblk m c 2 t) (iblk m c 3 t) (iblk m c 8 t) (iblk m c 9 t) (iblk m c 10 t) (iblk m c 11 t)
  Φ _ := Pipeline.scopedRest spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = out12 (iblk m c 0 t) (iblk m c 2 t) (iblk m c 4 t) (iblk m c 5 t) (iblk m c 6 t) (iblk m c 7 t) := by dsimp only [dats]
theorem after_13 (c : Dev nD) (t : Fin cfg0.N) : (dats m 0 c).after 13 t = out13 (iblk m c 0 t) (iblk m c 1 t) (iblk m c 2 t) (iblk m c 3 t) (iblk m c 8 t) (iblk m c 9 t) (iblk m c 10 t) (iblk m c 11 t) := by dsimp only [dats]

/-- An input window's buffer holds the window's block at every point, whether the pipeline fetched it there or kept
    it from the point before (then the block index has not moved). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The launch's whole arrays, dealt to the windows -/

/-- The buffers behind the windows' arrays, one by one: the ten arguments and the two results. -/
theorem bigSep_arrays {M : Type} [URA M] (Φ : Ref sig .tc → sProp M) :
    bigSep (Finset.univ.image (Pipeline.arrRef spec0)) Φ = iprop(Φ main_arg0 ∗ Φ main_arg1 ∗ Φ main_arg2 ∗ Φ main_arg3 ∗ Φ main_arg4 ∗ Φ main_arg5 ∗ Φ main_arg6 ∗ Φ main_arg7 ∗ Φ main_arg8 ∗ Φ main_arg9 ∗ Φ main_v0_0 ∗ Φ main_v0_1) :=
  bigSep_eq_bigSepL_of_eq [main_arg0, main_arg1, main_arg2, main_arg3, main_arg4, main_arg5, main_arg6, main_arg7, main_arg8, main_arg9, main_v0_0, main_v0_1] (by decide) (by decide) Φ

/-- One window's holding of its array from the buffer behind it, at the share the proof data names. -/
theorem window_of_buffer (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      ⊢ ((cfg0.win w).arr.view.loc (c.tc : Thread nD τ) ↦[(cfg0.win w).arr.view.set]{(dats m 0 c).share w} (dats m 0 c).arrAt w 0) := by
  rw [(arr_whole0 w).set_eq_univ, hq]
  exact .rfl

/-- The twelve buffers behind the windows' arrays, each whole at the full share, make the fourteen windows' holdings:
    `emb1`'s and `emb2`'s buffers are each split in halves between their two windows. -/
theorem hsplit (c : Dev nD) : (Pipeline.arrBufs spec0 c (V m c) : sProp 𝕄) ⊢ (dats m 0 c).arrays ((dats m 0 c).arrAt · 0) := by
  unfold Pipeline.arrBufs Dat.arrays
  rw [bigSep_arrays, bigSep_W0]
  iintro ⟨B0, B1, B2, B3, B4, B5, B6, B7, B8, B9, B10, B11⟩
  ihave B0 := (pointsTo_share (PosShare.mem_left_op_right fullShare)).1 $$ B0
  icases B0 with ⟨B0l, B0r⟩
  ihave B1 := (pointsTo_share (PosShare.mem_left_op_right fullShare)).1 $$ B1
  icases B1 with ⟨B1l, B1r⟩
  isplitl [B0l]; · iapply (window_of_buffer m c 0 fullShare.left rfl); iexact B0l
  isplitl [B0r]; · iapply (window_of_buffer m c 1 fullShare.right rfl); iexact B0r
  isplitl [B1l]; · iapply (window_of_buffer m c 2 fullShare.left rfl); iexact B1l
  isplitl [B1r]; · iapply (window_of_buffer m c 3 fullShare.right rfl); iexact B1r
  isplitl [B2]; · iapply (window_of_buffer m c 4 fullShare rfl); iexact B2
  isplitl [B3]; · iapply (window_of_buffer m c 5 fullShare rfl); iexact B3
  isplitl [B4]; · iapply (window_of_buffer m c 6 fullShare rfl); iexact B4
  isplitl [B5]; · iapply (window_of_buffer m c 7 fullShare rfl); iexact B5
  isplitl [B6]; · iapply (window_of_buffer m c 8 fullShare rfl); iexact B6
  isplitl [B7]; · iapply (window_of_buffer m c 9 fullShare rfl); iexact B7
  isplitl [B8]; · iapply (window_of_buffer m c 10 fullShare rfl); iexact B8
  isplitl [B9]; · iapply (window_of_buffer m c 11 fullShare rfl); iexact B9
  isplitl [B10]; · iapply (window_of_buffer m c 12 fullShare rfl); iexact B10
  iapply (window_of_buffer m c 13 fullShare rfl); iexact B11

/-! ## The run -/

set_option backward.isDefEq.respectTransparency.types false in
/-- From any memory with zero counters every weakly fair execution of @main terminates, and in every final state each
    window's array holds what the library computes from the proof data: an input its contents at entry, a result those
    overwritten by what the body left at each write-back. -/
theorem run_main : θ_run defs (onTc (τ := τ) (main (F := F))) (s₀ m ρ)
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp)) (Z := fun c => Pipeline.unscopedRest spec0 c (V m c))
    (hX := fun c => by iintro H; isplitr; · iempintro
                       iexact H)
    (hin := fun c => (show iprop(emp ∗ Pipeline.scopedRest spec0 c) ⊢ (Pipeline.scopedRest spec0 c : sProp 𝕄) from by iintro ⟨-, H⟩; iexact H))
    (hout := fun c => (show (Pipeline.scopedRest spec0 c : sProp 𝕄) ⊢ iprop(emp ∗ Pipeline.scopedRest spec0 c) from by
      iintro H; isplitr; · iempintro
      iexact H))
    (QY := fun _ _ => True)
    (hY := fun c s' => by iintro ⟨-, -, HSI⟩; imodintro; isplitr; · ipureintro; trivial
                          iexact HSI)
    (hQ := fun s h c w => (h c).1 w)

/-- info: 'Cert.Kernel.Region.run_main' depends on axioms: [propext, Classical.choice, Quot.sound] -/
#guard_msgs in #print axioms run_main

/-! ## The frame -/

/-- The argument arrays end as they began: each is some input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c) 0).trans ((dats m 0 c).arrAt_in 0 rfl _), ((h c) 2).trans ((dats m 0 c).arrAt_in 2 rfl _),
     ((h c) 4).trans ((dats m 0 c).arrAt_in 4 rfl _), ((h c) 5).trans ((dats m 0 c).arrAt_in 5 rfl _),
     ((h c) 6).trans ((dats m 0 c).arrAt_in 6 rfl _), ((h c) 7).trans ((dats m 0 c).arrAt_in 7 rfl _),
     ((h c) 8).trans ((dats m 0 c).arrAt_in 8 rfl _), ((h c) 9).trans ((dats m 0 c).arrAt_in 9 rfl _),
     ((h c) 10).trans ((dats m 0 c).arrAt_in 10 rfl _), ((h c) 11).trans ((dats m 0 c).arrAt_in 11 rfl _)⟩) (run_main m ρ)

end Cert.Kernel.Region

end
-- ==== Proof.RegionIdeal.lean ====
/-
  The run of `KernelIdeal`'s one kernel region, for any float instance `F`.

  The region has fourteen windows on twelve arrays: the entity embedding `emb1` is read through two windows (a tile of
  32 rows, and all 256 rows of the batch), the pair embedding `emb2` through two (a tile of 32 rows in the order
  (i, j), and the same tile in the order (j, i)); the eight weight and bias arrays are read whole; the two results are
  written tile by tile.  An array read through two windows is held by each at one half of the full share, which is
  all a read needs; the results are held whole.

  At every grid point the body loads the twelve input blocks whole and stores each result block whole, so what it
  leaves in a result window's buffer is one pure function of the twelve input blocks (`out12`, `out13`, over the
  skeleton's payloads).  From this: the proof data of the pipeline, the body's triple, how the launch's whole arrays
  split into the windows' shares, the run with every window's array named after it, and the frame.
-/
import proofs.«177152_j25348896981151_1_alg».proof.Proof.Gen.KernelIdeal.Launch
import proofs.«177152_j25348896981151_1_alg».proof.Proof.Gen.KernelIdeal.Skeleton
import proofs.«177152_j25348896981151_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and a window's block at a point -/

/-- @main is the region alone, so the region finds every array as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`: the rectangle of its array that the index map selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and store is of a whole buffer -/

abbrev rRow : Rect S1x32x64 := Rect.unit (s := S1x32x64) ![0, 0, 0] S1x32x64.size inb_S1x32x64_S1x32x64_0_0_0
abbrev rAll : Rect S1x256x64 := Rect.unit (s := S1x256x64) ![0, 0, 0] S1x256x64.size inb_S1x256x64_S1x256x64_0_0_0
abbrev rPair : Rect S1x32x256x64 := Rect.unit (s := S1x32x256x64) ![0, 0, 0, 0] S1x32x256x64.size inb_S1x32x256x64_S1x32x256x64_0_0_0_0
abbrev rPairT : Rect S1x256x32x64 := Rect.unit (s := S1x256x32x64) ![0, 0, 0, 0] S1x256x32x64.size inb_S1x256x32x64_S1x256x32x64_0_0_0_0
abbrev rW1a : Rect S192x128 := Rect.unit (s := S192x128) ![0, 0] S192x128.size inb_S192x128_S192x128_0_0
abbrev rB1a : Rect S128 := Rect.unit (s := S128) ![0] S128.size inb_S128_S128_0
abbrev rW1b : Rect S128x64 := Rect.unit (s := S128x64) ![0, 0] S128x64.size inb_S128x64_S128x64_0_0
abbrev rB64 : Rect S64 := Rect.unit (s := S64) ![0] S64.size inb_S64_S64_0
abbrev rW2a : Rect S256x256 := Rect.unit (s := S256x256) ![0, 0] S256x256.size inb_S256x256_S256x256_0_0
abbrev rB2a : Rect S256 := Rect.unit (s := S256) ![0] S256.size inb_S256_S256_0
abbrev rW2b : Rect S256x64 := Rect.unit (s := S256x64) ![0, 0] S256x64.size inb_S256x64_S256x64_0_0

/-! ## What the body leaves in each result window's buffer -/

/-- The first result's tile (the entity path): the two-layer perceptron of a tile's rows of `emb1` beside the
    maximum and the minimum over `j` of the tile's rows of `emb2`. -/
def out12 (x0 : Vec F S1x32x64 .f32) (x2 : Vec F S1x32x256x64 .f32) (x4 : Vec F S192x128 .f32) (x5 : Vec F S128 .f32)
    (x6 : Vec F S128x64 .f32) (x7 : Vec F S64 .f32) : Vec F S1x32x64 .f32 :=
  View.canon [⟨rRow, k0_pay1 (k0_pay7 (View.ld x0 rRow) (View.ld x2 rPair) (View.ld x4 rW1a) (View.ld x5 rB1a) (View.ld x6 rW1b) (View.ld x7 rB64))⟩]

/-- The second result's tile (the pair path): the two-layer perceptron of, at (i, j), `emb1` at j, `emb2` at (j, i),
    `emb1` at i and `emb2` at (i, j), side by side. -/
def out13 (x0 : Vec F S1x32x64 .f32) (x1 : Vec F S1x256x64 .f32) (x2 : Vec F S1x32x256x64 .f32) (x3 : Vec F S1x256x32x64 .f32)
    (x8 : Vec F S256x256 .f32) (x9 : Vec F S256 .f32) (x10 : Vec F S256x64 .f32) (x11 : Vec F S64 .f32) : Vec F S1x32x256x64 .f32 :=
  View.canon [⟨rPair, k0_pay2 (k0_pay3 (View.ld x0 rRow)) (k0_pay4 (View.ld x1 rAll)) (k0_pay5 (View.ld x2 rPair)) (k0_pay6 (View.ld x3 rPairT))
    (View.ld x8 rW2a) (View.ld x9 rB2a) (View.ld x10 rW2b) (View.ld x11 rB64)⟩]

theorem cover12 (p0 : Vec F S1x32x64 .f32) (y : S1x32x64.Idx) :
    ∃ pc ∈ ([⟨rRow, p0⟩] : List (View.Piece (Elt F) S1x32x64 .f32)), y ∈ pc.1.set :=
  View.cover_of_tiled [⟨rRow, p0⟩] S1x32x64.size (by rfl) y

theorem cover13 (p0 : Vec F S1x32x256x64 .f32) (y : S1x32x256x64.Idx) :
    ∃ pc ∈ ([⟨rPair, p0⟩] : List (View.Piece (Elt F) S1x32x256x64 .f32)), y ∈ pc.1.set :=
  View.cover_of_tiled [⟨rPair, p0⟩] S1x32x256x64.size (by rfl) y

/-! ## The body's triple -/

set_option maxHeartbeats 4000000 in
/-- On whole buffers, the twelve inputs' at contents `xW` and the two results' at anything, the body runs to the
    inputs' as they were and the results' at `out12`, `out13` of the inputs'. -/
theorem sound_kernel (c : Dev nD) (E : Set ℕ) (i : grid0.Coords) (arg2 : Memref sig .tc .vmem S1x32x64 .f32) (harg2 : arg2.IsWhole) (arg3 : Memref sig .tc .vmem S1x256x64 .f32) (harg3 : arg3.IsWhole) (arg4 : Memref sig .tc .vmem S1x32x256x64 .f32) (harg4 : arg4.IsWhole) (arg5 : Memref sig .tc .vmem S1x256x32x64 .f32) (harg5 : arg5.IsWhole) (arg6 : Memref sig .tc .vmem S192x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256x64 .f32) (harg12 : arg12.IsWhole) (arg13 : Memref sig .tc .vmem S64 .f32) (harg13 : arg13.IsWhole) (arg14 : Memref sig .tc .vmem S1x32x64 .f32) (harg14 : arg14.IsWhole) (arg15 : Memref sig .tc .vmem S1x32x256x64 .f32) (harg15 : arg15.IsWhole)
    (x0 : Vec F S1x32x64 .f32) (x1 : Vec F S1x256x64 .f32) (x2 : Vec F S1x32x256x64 .f32) (x3 : Vec F S1x256x32x64 .f32) (x4 : Vec F S192x128 .f32) (x5 : Vec F S128 .f32) (x6 : Vec F S128x64 .f32) (x7 : Vec F S64 .f32) (x8 : Vec F S256x256 .f32) (x9 : Vec F S256 .f32) (x10 : Vec F S256x64 .f32) (x11 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (out12 x0 x2 x4 x5 x6 x7) ∗ owns (c : Thread nD τ) arg15 fullShare (out13 x0 x1 x2 x3 x8 x9 x10 x11)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover12 _)
  iexists _; isplitr
  swap; · iexact H13
  ipureintro
  try dsimp only
  exact View.read_writes_eq_canon _ _ _ (cover13 _)

/-! ## The pipeline's proof data -/

/-- On core `c`: the arrays as the region finds them; after the body at point `t` every input's buffer at its block
    and each result's at `out12` / `out13` of the input blocks; the invariant the core's scoped buffers that are no
    staging buffer (there is none); nothing owed.  The two windows on `emb1`, and the two on `emb2`, hold their array at
    the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 (iblk m c 0 t) (iblk m c 2 t) (iblk m c 4 t) (iblk m c 5 t) (iblk m c 6 t) (iblk m c 7 t)
    | ⟨13, _⟩ => out13 (iblk m c 0 t) (iblk m c 1 t) (iblk m c 2 t) (iblk m c 3 t) (iblk m c 8 t) (iblk m c 9 t) (iblk m c 10 t) (iblk m c 11 t)
  Φ _ := Pipeline.scopedRest spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = out12 (iblk m c 0 t) (iblk m c 2 t) (iblk m c 4 t) (iblk m c 5 t) (iblk m c 6 t) (iblk m c 7 t) := by dsimp only [dats]
theorem after_13 (c : Dev nD) (t : Fin cfg0.N) : (dats m 0 c).after 13 t = out13 (iblk m c 0 t) (iblk m c 1 t) (iblk m c 2 t) (iblk m c 3 t) (iblk m c 8 t) (iblk m c 9 t) (iblk m c 10 t) (iblk m c 11 t) := by dsimp only [dats]

/-- An input window's buffer holds the window's block at every point, whether the pipeline fetched it there or kept
    it from the point before (then the block index has not moved). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The launch's whole arrays, dealt to the windows -/

/-- The buffers behind the windows' arrays, one by one: the ten arguments and the two results. -/
theorem bigSep_arrays {M : Type} [URA M] (Φ : Ref sig .tc → sProp M) :
    bigSep (Finset.univ.image (Pipeline.arrRef spec0)) Φ = iprop(Φ main_arg0 ∗ Φ main_arg1 ∗ Φ main_arg2 ∗ Φ main_arg3 ∗ Φ main_arg4 ∗ Φ main_arg5 ∗ Φ main_arg6 ∗ Φ main_arg7 ∗ Φ main_arg8 ∗ Φ main_arg9 ∗ Φ main_v0_0 ∗ Φ main_v0_1) :=
  bigSep_eq_bigSepL_of_eq [main_arg0, main_arg1, main_arg2, main_arg3, main_arg4, main_arg5, main_arg6, main_arg7, main_arg8, main_arg9, main_v0_0, main_v0_1] (by decide) (by decide) Φ

/-- One window's holding of its array from the buffer behind it, at the share the proof data names. -/
theorem window_of_buffer (c : Dev nD) (w : Fin cfg0.W) (q : PosShare TreeShare) (hq : (dats m 0 c).share w = q) :
    ((((c.tc : Thread nD τ).loc (Pipeline.arrRef spec0 w)) ↦{q} V m c (Pipeline.arrRef spec0 w)) : sProp 𝕄)
      ⊢ ((cfg0.win w).arr.view.loc (c.tc : Thread nD τ) ↦[(cfg0.win w).arr.view.set]{(dats m 0 c).share w} (dats m 0 c).arrAt w 0) := by
  rw [(arr_whole0 w).set_eq_univ, hq]
  exact .rfl

/-- The twelve buffers behind the windows' arrays, each whole at the full share, make the fourteen windows' holdings:
    `emb1`'s and `emb2`'s buffers are each split in halves between their two windows. -/
theorem hsplit (c : Dev nD) : (Pipeline.arrBufs spec0 c (V m c) : sProp 𝕄) ⊢ (dats m 0 c).arrays ((dats m 0 c).arrAt · 0) := by
  unfold Pipeline.arrBufs Dat.arrays
  rw [bigSep_arrays, bigSep_W0]
  iintro ⟨B0, B1, B2, B3, B4, B5, B6, B7, B8, B9, B10, B11⟩
  ihave B0 := (pointsTo_share (PosShare.mem_left_op_right fullShare)).1 $$ B0
  icases B0 with ⟨B0l, B0r⟩
  ihave B1 := (pointsTo_share (PosShare.mem_left_op_right fullShare)).1 $$ B1
  icases B1 with ⟨B1l, B1r⟩
  isplitl [B0l]; · iapply (window_of_buffer m c 0 fullShare.left rfl); iexact B0l
  isplitl [B0r]; · iapply (window_of_buffer m c 1 fullShare.right rfl); iexact B0r
  isplitl [B1l]; · iapply (window_of_buffer m c 2 fullShare.left rfl); iexact B1l
  isplitl [B1r]; · iapply (window_of_buffer m c 3 fullShare.right rfl); iexact B1r
  isplitl [B2]; · iapply (window_of_buffer m c 4 fullShare rfl); iexact B2
  isplitl [B3]; · iapply (window_of_buffer m c 5 fullShare rfl); iexact B3
  isplitl [B4]; · iapply (window_of_buffer m c 6 fullShare rfl); iexact B4
  isplitl [B5]; · iapply (window_of_buffer m c 7 fullShare rfl); iexact B5
  isplitl [B6]; · iapply (window_of_buffer m c 8 fullShare rfl); iexact B6
  isplitl [B7]; · iapply (window_of_buffer m c 9 fullShare rfl); iexact B7
  isplitl [B8]; · iapply (window_of_buffer m c 10 fullShare rfl); iexact B8
  isplitl [B9]; · iapply (window_of_buffer m c 11 fullShare rfl); iexact B9
  isplitl [B10]; · iapply (window_of_buffer m c 12 fullShare rfl); iexact B10
  iapply (window_of_buffer m c 13 fullShare rfl); iexact B11

/-! ## The run -/

set_option backward.isDefEq.respectTransparency.types false in
/-- From any memory with zero counters every weakly fair execution of @main terminates, and in every final state each
    window's array holds what the library computes from the proof data: an input its contents at entry, a result those
    overwritten by what the body left at each write-back. -/
theorem run_main : θ_run defs (onTc (τ := τ) (main (F := F))) (s₀ m ρ)
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp)) (Z := fun c => Pipeline.unscopedRest spec0 c (V m c))
    (hX := fun c => by iintro H; isplitr; · iempintro
                       iexact H)
    (hin := fun c => (show iprop(emp ∗ Pipeline.scopedRest spec0 c) ⊢ (Pipeline.scopedRest spec0 c : sProp 𝕄) from by iintro ⟨-, H⟩; iexact H))
    (hout := fun c => (show (Pipeline.scopedRest spec0 c : sProp 𝕄) ⊢ iprop(emp ∗ Pipeline.scopedRest spec0 c) from by
      iintro H; isplitr; · iempintro
      iexact H))
    (QY := fun _ _ => True)
    (hY := fun c s' => by iintro ⟨-, -, HSI⟩; imodintro; isplitr; · ipureintro; trivial
                          iexact HSI)
    (hQ := fun s h c w => (h c).1 w)

/-- info: 'Cert.KernelIdeal.Region.run_main' depends on axioms: [propext, Classical.choice, Quot.sound] -/
#guard_msgs in #print axioms run_main

/-! ## The frame -/

/-- The argument arrays end as they began: each is some input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c) 0).trans ((dats m 0 c).arrAt_in 0 rfl _), ((h c) 2).trans ((dats m 0 c).arrAt_in 2 rfl _),
     ((h c) 4).trans ((dats m 0 c).arrAt_in 4 rfl _), ((h c) 5).trans ((dats m 0 c).arrAt_in 5 rfl _),
     ((h c) 6).trans ((dats m 0 c).arrAt_in 6 rfl _), ((h c) 7).trans ((dats m 0 c).arrAt_in 7 rfl _),
     ((h c) 8).trans ((dats m 0 c).arrAt_in 8 rfl _), ((h c) 9).trans ((dats m 0 c).arrAt_in 9 rfl _),
     ((h c) 10).trans ((dats m 0 c).arrAt_in 10 rfl _), ((h c) 11).trans ((dats m 0 c).arrAt_in 11 rfl _)⟩) (run_main m ρ)

end Cert.KernelIdeal.Region

end
-- ==== Proof.Spec.lean ====
/-
  What the layer computes, index by index, on the extended reals.

  Both results are a two-layer perceptron  o ↦ Σ_h relu(Σ_k row k · Wa(k, h) + ba h) · Wb(h, o) + bb o  applied to a
  feature row that depends on the output position:

  * the entity path, at (b, i): the 192 features are `emb1` at (b, i), then the maximum over j, then the minimum over j,
    of `emb2` at (b, i, j) — the extrema taken feature by feature, as folds of `max` from −∞ and of `min` from +∞;
  * the pair path, at (b, i, j): the 256 features are `emb1` at (b, j), `emb2` at (b, j, i), `emb1` at (b, i) and
    `emb2` at (b, i, j), side by side.

  relu is the maximum with 0.  Nothing here needs the inputs finite: both programs form the same sums of the same
  products in the same order of features.
-/
import Idealize.ShloMosaic.PureOps.Ideal
import Idealize.ShloMosaic.Lib.ValueIdx

noncomputable section

open scoped BigOperators

namespace Cert.Spec

open Idealize.ShloMosaic Idealize.ShloMosaic.ValueIdx

/-- −∞ and +∞ as the two reductions' starting values (the f32 patterns of the infinities). -/
abbrev negInf : EReal := Ideal.ofBits .f32 0xFF800000#32
abbrev posInf : EReal := Ideal.ofBits .f32 0x7F800000#32

/-- The two-layer perceptron on one feature row: K features, H hidden units, O outputs. -/
def mlp {K H O : Nat} (Wa : (⟨2, ![K, H]⟩ : Shape).Idx → EReal) (ba : (⟨1, ![H]⟩ : Shape).Idx → EReal)
    (Wb : (⟨2, ![H, O]⟩ : Shape).Idx → EReal) (bb : (⟨1, ![O]⟩ : Shape).Idx → EReal) (row : Fin K → EReal) (o : Fin O) : EReal :=
  (∑ h : Fin H, max ((∑ k : Fin K, row k * Wa (ix2 k h)) + ba (ix1 h)) 0 * Wb (ix2 h o)) + bb (ix1 o)

/-- The entity path's feature row from the entity's own 64 features `e` and its 256 × 64 pair features `p`. -/
def rowEntity (e : Fin 64 → EReal) (p : Fin 256 → Fin 64 → EReal) (k : Fin 192) : EReal :=
  if h₁ : k.val < 64 then e ⟨k.val, h₁⟩
  else if h₂ : k.val < 128 then (Finset.univ : Finset (Fin 256)).fold max negInf (fun j => p j ⟨k.val - 64, by omega⟩)
  else (Finset.univ : Finset (Fin 256)).fold min posInf (fun j => p j ⟨k.val - 128, by omega⟩)

/-- The pair path's feature row from four blocks of 64 features. -/
def rowPair (a b c d : Fin 64 → EReal) (k : Fin 256) : EReal :=
  if h₁ : k.val < 64 then a ⟨k.val, h₁⟩
  else if h₂ : k.val < 128 then b ⟨k.val - 64, by omega⟩
  else if h₃ : k.val < 192 then c ⟨k.val - 128, by omega⟩
  else d ⟨k.val - 192, by omega⟩

/-- The first result, f32[8, 256, 64]. -/
def outEntity (emb1 : (⟨3, ![8, 256, 64]⟩ : Shape).Idx → EReal) (emb2 : (⟨4, ![8, 256, 256, 64]⟩ : Shape).Idx → EReal)
    (W1a : (⟨2, ![192, 128]⟩ : Shape).Idx → EReal) (b1a : (⟨1, ![128]⟩ : Shape).Idx → EReal)
    (W1b : (⟨2, ![128, 64]⟩ : Shape).Idx → EReal) (b1b : (⟨1, ![64]⟩ : Shape).Idx → EReal) :
    (⟨3, ![8, 256, 64]⟩ : Shape).Idx → EReal := fun y =>
  mlp W1a b1a W1b b1b (rowEntity (fun d => emb1 (ix3 (y 0) (y 1) d)) (fun j d => emb2 (ix4 (y 0) (y 1) j d))) (y 2)

/-- The second result, f32[8, 256, 256, 64]. -/
def outPair (emb1 : (⟨3, ![8, 256, 64]⟩ : Shape).Idx → EReal) (emb2 : (⟨4, ![8, 256, 256, 64]⟩ : Shape).Idx → EReal)
    (W2a : (⟨2, ![256, 256]⟩ : Shape).Idx → EReal) (b2a : (⟨1, ![256]⟩ : Shape).Idx → EReal)
    (W2b : (⟨2, ![256, 64]⟩ : Shape).Idx → EReal) (b2b : (⟨1, ![64]⟩ : Shape).Idx → EReal) :
    (⟨4, ![8, 256, 256, 64]⟩ : Shape).Idx → EReal := fun y =>
  mlp W2a b2a W2b b2b (rowPair (fun d => emb1 (ix3 (y 0) (y 2) d)) (fun d => emb2 (ix4 (y 0) (y 2) (y 1) d))
    (fun d => emb1 (ix3 (y 0) (y 1) d)) (fun d => emb2 (ix4 (y 0) (y 1) (y 2) d))) (y 3)

end Cert.Spec

end
-- ==== Proof.KernelValue.lean ====
/-
  The two result arrays after the run, as whole-array functions of the argument arrays (at the ideal instance).

  The grid has 64 points; point t works on batch  b = t / 8  and on the tile of rows  (t % 8) · 32 … (t % 8) · 32 + 31.
  There the entity path's window holds rows (b, tile) of the first result and the pair path's window rows (b, tile, ·)
  of the second; the input windows hold: rows (b, tile) of `emb1`; all 256 rows of batch b of `emb1`; rows
  (b, tile, ·) of `emb2`; rows (b, ·, tile) of `emb2`; and the eight weight and bias arrays whole.  So what point t
  writes back is its block of the layer's function (Spec.lean) of the argument arrays — given what a tile's payload is
  at one entry (`EntityTile`, `PairTile`: the perceptron of that entry's feature row) — and the 64 blocks tile each
  result array, so each result array ends at that function.
-/
import proofs.«177152_j25348896981151_1_alg».proof.Proof.RegionIdeal
import proofs.«177152_j25348896981151_1_alg».proof.Proof.Spec
import Idealize.ShloMosaic.Lib.Pipeline.Value
import Idealize.ShloMosaic.Lib.ValueIdx

set_option maxRecDepth 16384

noncomputable section

open scoped BigOperators

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Region Cert.Spec

variable (m : (ℓ : Loc nD τ sig) → Buf (Elt Ideal) ℓ)

/-! ## What a tile's payload is at one entry (proved apart, over the payloads alone) -/

/-- The entity path's tile at (row r, output o): the perceptron of the row's features. -/
def EntityTile : Prop :=
  ∀ (x0 : Vec Ideal S1x32x64 .f32) (x2 : Vec Ideal S1x32x256x64 .f32) (x4 : Vec Ideal S192x128 .f32)
    (x5 : Vec Ideal S128 .f32) (x6 : Vec Ideal S128x64 .f32) (x7 : Vec Ideal S64 .f32) (r : Fin 32) (o : Fin 64),
    k0_pay1 (F := Ideal) (k0_pay7 x0 x2 x4 x5 x6 x7) (ix3 (0 : Fin 1) r o)
      = mlp x4 x5 x6 x7 (rowEntity (fun d => x0 (ix3 (0 : Fin 1) r d)) (fun j d => x2 (ix4 (0 : Fin 1) r j d))) o

/-- The pair path's tile at (row r, column j, output o): the perceptron of the pair's features. -/
def PairTile : Prop :=
  ∀ (x0 : Vec Ideal S1x32x64 .f32) (x1 : Vec Ideal S1x256x64 .f32) (x2 : Vec Ideal S1x32x256x64 .f32)
    (x3 : Vec Ideal S1x256x32x64 .f32) (x8 : Vec Ideal S256x256 .f32) (x9 : Vec Ideal S256 .f32) (x10 : Vec Ideal S256x64 .f32)
    (x11 : Vec Ideal S64 .f32) (r : Fin 32) (j : Fin 256) (o : Fin 64),
    k0_pay2 (F := Ideal) (k0_pay3 x0) (k0_pay4 x1) (k0_pay5 x2) (k0_pay6 x3) x8 x9 x10 x11 (ix4 (0 : Fin 1) r j o)
      = mlp x8 x9 x10 x11 (rowPair (fun d => x1 (ix3 (0 : Fin 1) j d)) (fun d => x3 (ix4 (0 : Fin 1) j r d))
          (fun d => x0 (ix3 (0 : Fin 1) r d)) (fun d => x2 (ix4 (0 : Fin 1) r j d))) o

/-! ## The grid: batch and tile of a point -/

theorem N64 (t : Fin cfg0.N) : t.val < 64 := t.isLt

/-- The batch of point t. -/
def bOf (t : Fin cfg0.N) : Fin 8 := ⟨t.val / 8, by have := N64 t; omega⟩
/-- Row r of point t's tile, as a row of the array. -/
def iOf (t : Fin cfg0.N) (r : Fin 32) : Fin 256 := ⟨t.val % 8 * 32 + r.val, by have := r.isLt; omega⟩

/-- The printed index maps, decided over the 64 points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 4) = t.val / 8 ∧ win0_2.index t (1 : Fin 4) = t.val % 8 ∧ win0_2.index t (2 : Fin 4) = 0 ∧ win0_2.index t (3 : Fin 4) = 0
    ∧ win0_3.index t (0 : Fin 4) = t.val / 8 ∧ win0_3.index t (1 : Fin 4) = 0 ∧ win0_3.index t (2 : Fin 4) = t.val % 8 ∧ win0_3.index t (3 : Fin 4) = 0
    ∧ win0_12.index t (0 : Fin 3) = t.val / 8 ∧ win0_12.index t (1 : Fin 3) = t.val % 8 ∧ win0_12.index t (2 : Fin 3) = 0
    ∧ win0_13.index t (0 : Fin 4) = t.val / 8 ∧ win0_13.index t (1 : Fin 4) = t.val % 8 ∧ win0_13.index t (2 : Fin 4) = 0 ∧ win0_13.index t (3 : Fin 4) = 0 :=
  (by decide +kernel : ∀ t : Fin grid0.N, _)

/-- The weight and bias windows sit at block 0 at every point. -/
theorem idx_whole : ∀ t : Fin cfg0.N,
    win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0
    ∧ win0_10.index t (0 : Fin 2) = 0 ∧ win0_10.index t (1 : Fin 2) = 0 ∧ win0_11.index t (0 : Fin 1) = 0 :=
  (by decide +kernel : ∀ t : Fin grid0.N, _)

/-! ## The input blocks, read at an entry -/

theorem rd0 (c : Dev nD) (t : Fin cfg0.N) (r : Fin 32) (d : Fin 64) :
    iblk m c 0 t (ix3 (0 : Fin 1) r d) = V m c main_arg0 (ix3 (bOf t) (iOf t r) d) := by
  obtain ⟨e0, e1, e2, -⟩ := idx_facts t
  show V m c main_arg0 (((cfg0.win 0).blk t).view.emb (ix3 (0 : Fin 1) r d)) = _
  congr 1; funext a; apply Fin.ext
  match a with
  | ⟨0, _⟩ => show win0_0.index t (0 : Fin 3) * 1 + 1 * 0 = t.val / 8; omega
  | ⟨1, _⟩ => show win0_0.index t (1 : Fin 3) * 32 + 1 * r.val = t.val % 8 * 32 + r.val; omega
  | ⟨2, _⟩ => show win0_0.index t (2 : Fin 3) * 64 + 1 * d.val = d.val; omega

theorem rd1 (c : Dev nD) (t : Fin cfg0.N) (j : Fin 256) (d : Fin 64) :
    iblk m c 1 t (ix3 (0 : Fin 1) j d) = V m c main_arg0 (ix3 (bOf t) j d) := by
  obtain ⟨-, -, -, e0, e1, e2, -⟩ := idx_facts t
  show V m c main_arg0 (((cfg0.win 1).blk t).view.emb (ix3 (0 : Fin 1) j d)) = _
  congr 1; funext a; apply Fin.ext
  match a with
  | ⟨0, _⟩ => show win0_1.index t (0 : Fin 3) * 1 + 1 * 0 = t.val / 8; omega
  | ⟨1, _⟩ => show win0_1.index t (1 : Fin 3) * 256 + 1 * j.val = j.val; omega
  | ⟨2, _⟩ => show win0_1.index t (2 : Fin 3) * 64 + 1 * d.val = d.val; omega

theorem rd2 (c : Dev nD) (t : Fin cfg0.N) (r : Fin 32) (j : Fin 256) (d : Fin 64) :
    iblk m c 2 t (ix4 (0 : Fin 1) r j d) = V m c main_arg1 (ix4 (bOf t) (iOf t r) j d) := by
  obtain ⟨-, -, -, -, -, -, e0, e1, e2, e3, -⟩ := idx_facts t
  show V m c main_arg1 (((cfg0.win 2).blk t).view.emb (ix4 (0 : Fin 1) r j d)) = _
  congr 1; funext a; apply Fin.ext
  match a with
  | ⟨0, _⟩ => show win0_2.index t (0 : Fin 4) * 1 + 1 * 0 = t.val / 8; omega
  | ⟨1, _⟩ => show win0_2.index t (1 : Fin 4) * 32 + 1 * r.val = t.val % 8 * 32 + r.val; omega
  | ⟨2, _⟩ => show win0_2.index t (2 : Fin 4) * 256 + 1 * j.val = j.val; omega
  | ⟨3, _⟩ => show win0_2.index t (3 : Fin 4) * 64 + 1 * d.val = d.val; omega

theorem rd3 (c : Dev nD) (t : Fin cfg0.N) (j : Fin 256) (r : Fin 32) (d : Fin 64) :
    iblk m c 3 t (ix4 (0 : Fin 1) j r d) = V m c main_arg1 (ix4 (bOf t) j (iOf t r) d) := by
  obtain ⟨-, -, -, -, -, -, -, -, -, -, e0, e1, e2, e3, -⟩ := idx_facts t
  show V m c main_arg1 (((cfg0.win 3).blk t).view.emb (ix4 (0 : Fin 1) j r d)) = _
  congr 1; funext a; apply Fin.ext
  match a with
  | ⟨0, _⟩ => show win0_3.index t (0 : Fin 4) * 1 + 1 * 0 = t.val / 8; omega
  | ⟨1, _⟩ => show win0_3.index t (1 : Fin 4) * 256 + 1 * j.val = j.val; omega
  | ⟨2, _⟩ => show win0_3.index t (2 : Fin 4) * 32 + 1 * r.val = t.val % 8 * 32 + r.val; omega
  | ⟨3, _⟩ => show win0_3.index t (3 : Fin 4) * 64 + 1 * d.val = d.val; omega

/-- A weight or bias window's block is its whole array. -/
theorem rd4 (c : Dev nD) (t : Fin cfg0.N) : iblk m c 4 t = V m c main_arg2 := by
  obtain ⟨e0, e1, -⟩ := idx_whole t
  funext y
  show V m c main_arg2 (((cfg0.win 4).blk t).view.emb y) = V m c main_arg2 y
  congr 1; funext a; apply Fin.ext
  match a with
  | ⟨0, _⟩ => show win0_4.index t (0 : Fin 2) * 192 + 1 * (y 0).val = (y 0).val; omega
  | ⟨1, _⟩ => show win0_4.index t (1 : Fin 2) * 128 + 1 * (y 1).val = (y 1).val; omega
theorem rd5 (c : Dev nD) (t : Fin cfg0.N) : iblk m c 5 t = V m c main_arg3 := by
  obtain ⟨-, -, e0, -⟩ := idx_whole t
  funext y
  show V m c main_arg3 (((cfg0.win 5).blk t).view.emb y) = V m c main_arg3 y
  congr 1; funext a; apply Fin.ext
  match a with
  | ⟨0, _⟩ => show win0_5.index t (0 : Fin 1) * 128 + 1 * (y 0).val = (y 0).val; omega
theorem rd6 (c : Dev nD) (t : Fin cfg0.N) : iblk m c 6 t = V m c main_arg4 := by
  obtain ⟨-, -, -, e0, e1, -⟩ := idx_whole t
  funext y
  show V m c main_arg4 (((cfg0.win 6).blk t).view.emb y) = V m c main_arg4 y
  congr 1; funext a; apply Fin.ext
  match a with
  | ⟨0, _⟩ => show win0_6.index t (0 : Fin 2) * 128 + 1 * (y 0).val = (y 0).val; omega
  | ⟨1, _⟩ => show win0_6.index t (1 : Fin 2) * 64 + 1 * (y 1).val = (y 1).val; omega
theorem rd7 (c : Dev nD) (t : Fin cfg0.N) : iblk m c 7 t = V m c main_arg5 := by
  obtain ⟨-, -, -, -, -, e0, -⟩ := idx_whole t
  funext y
  show V m c main_arg5 (((cfg0.win 7).blk t).view.emb y) = V m c main_arg5 y
  congr 1; funext a; apply Fin.ext
  match a with
  | ⟨0, _⟩ => show win0_7.index t (0 : Fin 1) * 64 + 1 * (y 0).val = (y 0).val; omega
theorem rd8 (c : Dev nD) (t : Fin cfg0.N) : iblk m c 8 t = V m c main_arg6 := by
  obtain ⟨-, -, -, -, -, -, e0, e1, -⟩ := idx_whole t
  funext y
  show V m c main_arg6 (((cfg0.win 8).blk t).view.emb y) = V m c main_arg6 y
  congr 1; funext a; apply Fin.ext
  match a with
  | ⟨0, _⟩ => show win0_8.index t (0 : Fin 2) * 256 + 1 * (y 0).val = (y 0).val; omega
  | ⟨1, _⟩ => show win0_8.index t (1 : Fin 2) * 256 + 1 * (y 1).val = (y 1).val; omega
theorem rd9 (c : Dev nD) (t : Fin cfg0.N) : iblk m c 9 t = V m c main_arg7 := by
  obtain ⟨-, -, -, -, -, -, -, -, e0, -⟩ := idx_whole t
  funext y
  show V m c main_arg7 (((cfg0.win 9).blk t).view.emb y) = V m c main_arg7 y
  congr 1; funext a; apply Fin.ext
  match a with
  | ⟨0, _⟩ => show win0_9.index t (0 : Fin 1) * 256 + 1 * (y 0).val = (y 0).val; omega
theorem rd10 (c : Dev nD) (t : Fin cfg0.N) : iblk m c 10 t = V m c main_arg8 := by
  obtain ⟨-, -, -, -, -, -, -, -, -, e0, e1, -⟩ := idx_whole t
  funext y
  show V m c main_arg8 (((cfg0.win 10).blk t).view.emb y) = V m c main_arg8 y
  congr 1; funext a; apply Fin.ext
  match a with
  | ⟨0, _⟩ => show win0_10.index t (0 : Fin 2) * 256 + 1 * (y 0).val = (y 0).val; omega
  | ⟨1, _⟩ => show win0_10.index t (1 : Fin 2) * 64 + 1 * (y 1).val = (y 1).val; omega
theorem rd11 (c : Dev nD) (t : Fin cfg0.N) : iblk m c 11 t = V m c main_arg9 := by
  obtain ⟨-, -, -, -, -, -, -, -, -, -, -, e0⟩ := idx_whole t
  funext y
  show V m c main_arg9 (((cfg0.win 11).blk t).view.emb y) = V m c main_arg9 y
  congr 1; funext a; apply Fin.ext
  match a with
  | ⟨0, _⟩ => show win0_11.index t (0 : Fin 1) * 64 + 1 * (y 0).val = (y 0).val; omega

/-! ## The result blocks' places in their arrays -/

theorem emb12 (t : Fin cfg0.N) (r : Fin 32) (o : Fin 64) :
    ((cfg0.win 12).blk t).view.emb (ix3 (0 : Fin 1) r o) = ix3 (bOf t) (iOf t r) o := by
  obtain ⟨-, -, -, -, -, -, -, -, -, -, -, -, -, -, e0, e1, e2, -⟩ := idx_facts t
  funext a; apply Fin.ext
  match a with
  | ⟨0, _⟩ => show win0_12.index t (0 : Fin 3) * 1 + 1 * 0 = t.val / 8; omega
  | ⟨1, _⟩ => show win0_12.index t (1 : Fin 3) * 32 + 1 * r.val = t.val % 8 * 32 + r.val; omega
  | ⟨2, _⟩ => show win0_12.index t (2 : Fin 3) * 64 + 1 * o.val = o.val; omega

theorem emb13 (t : Fin cfg0.N) (r : Fin 32) (j : Fin 256) (o : Fin 64) :
    ((cfg0.win 13).blk t).view.emb (ix4 (0 : Fin 1) r j o) = ix4 (bOf t) (iOf t r) j o := by
  obtain ⟨-, -, -, -, -, -, -, -, -, -, -, -, -, -, -, -, -, e0, e1, e2, e3⟩ := idx_facts t
  funext a; apply Fin.ext
  match a with
  | ⟨0, _⟩ => show win0_13.index t (0 : Fin 4) * 1 + 1 * 0 = t.val / 8; omega
  | ⟨1, _⟩ => show win0_13.index t (1 : Fin 4) * 32 + 1 * r.val = t.val % 8 * 32 + r.val; omega
  | ⟨2, _⟩ => show win0_13.index t (2 : Fin 4) * 256 + 1 * j.val = j.val; omega
  | ⟨3, _⟩ => show win0_13.index t (3 : Fin 4) * 64 + 1 * o.val = o.val; omega

/-! ## What a point writes back is its block of the layer's function -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first result as the region's arrays give it. -/
abbrev entityOf (c : Dev nD) : S8x256x64.Idx → EReal :=
  outEntity (V m c main_arg0) (V m c main_arg1) (V m c main_arg2) (V m c main_arg3) (V m c main_arg4) (V m c main_arg5)
/-- The second result as the region's arrays give it. -/
abbrev pairOf (c : Dev nD) : S8x256x256x64.Idx → EReal :=
  outPair (V m c main_arg0) (V m c main_arg1) (V m c main_arg6) (V m c main_arg7) (V m c main_arg8) (V m c main_arg9)

theorem flushed12_eq (hE : EntityTile) (c : Dev nD) (t : Fin cfg0.N) :
    (dats m 0 c).flushed 12 t = ((cfg0.win 12).blk t).view.read (Elt Ideal) (entityOf m c) := by
  show (cfg0.win 12).cut (grid0.coords t) ((dats m 0 c).after 12 t) = _
  rw [after_12]
  unfold out12
  rw [View.canon_unit_zero hz3]
  simp only [View.ld_unit_zero (S := S1x32x64) hz3, View.ld_unit_zero (S := S1x32x256x64) hz4, View.ld_unit_zero (S := S192x128) hz2,
    View.ld_unit_zero (S := S128) hz1, View.ld_unit_zero (S := S128x64) hz2, View.ld_unit_zero (S := S64) hz1]
  funext y
  obtain ⟨z, r, o, rfl⟩ : ∃ (z : Fin 1) (r : Fin 32) (o : Fin 64), y = ix3 z r o := ⟨y 0, y 1, y 2, eq_ix3 y⟩
  obtain rfl : z = 0 := Subsingleton.elim _ _
  refine (hE (iblk m c 0 t) (iblk m c 2 t) (iblk m c 4 t) (iblk m c 5 t) (iblk m c 6 t) (iblk m c 7 t) r o).trans ?_
  show _ = entityOf m c (((cfg0.win 12).blk t).view.emb (ix3 (0 : Fin 1) r o))
  rw [emb12, rd4, rd5, rd6, rd7]
  simp only [rd0, rd2]
  rfl

theorem flushed13_eq (hP : PairTile) (c : Dev nD) (t : Fin cfg0.N) :
    (dats m 0 c).flushed 13 t = ((cfg0.win 13).blk t).view.read (Elt Ideal) (pairOf m c) := by
  show (cfg0.win 13).cut (grid0.coords t) ((dats m 0 c).after 13 t) = _
  rw [after_13]
  unfold out13
  rw [View.canon_unit_zero hz4]
  simp only [View.ld_unit_zero (S := S1x32x64) hz3, View.ld_unit_zero (S := S1x256x64) hz3, View.ld_unit_zero (S := S1x32x256x64) hz4,
    View.ld_unit_zero (S := S1x256x32x64) hz4, View.ld_unit_zero (S := S256x256) hz2, View.ld_unit_zero (S := S256) hz1,
    View.ld_unit_zero (S := S256x64) hz2, View.ld_unit_zero (S := S64) hz1]
  funext y
  obtain ⟨z, r, j, o, rfl⟩ : ∃ (z : Fin 1) (r : Fin 32) (j : Fin 256) (o : Fin 64), y = ix4 z r j o := ⟨y 0, y 1, y 2, y 3, eq_ix4 y⟩
  obtain rfl : z = 0 := Subsingleton.elim _ _
  refine (hP (iblk m c 0 t) (iblk m c 1 t) (iblk m c 2 t) (iblk m c 3 t) (iblk m c 8 t) (iblk m c 9 t) (iblk m c 10 t) (iblk m c 11 t) r j o).trans ?_
  show _ = pairOf m c (((cfg0.win 13).blk t).view.emb (ix4 (0 : Fin 1) r j o))
  rw [emb13, rd8, rd9, rd10, rd11]
  simp only [rd0, rd1, rd2, rd3]
  rfl

/-! ## The blocks tile the result arrays -/

theorem mem_blk12 (t : Fin cfg0.N) (i : S8x256x64.Idx) :
    i ∈ ((cfg0.win 12).blk t).view.set ↔ ∀ a : Fin 3, win0_12.index t a * S1x32x64.size a ≤ (i a).val ∧ (i a).val < win0_12.index t a * S1x32x64.size a + S1x32x64.size a := by
  show i ∈ ((View.whole main_v0_0).slice (win0_12.rect t)).set ↔ _
  rw [View.set_slice_whole, Rect.mem_set_unit]
  exact Iff.rfl

theorem mem_blk13 (t : Fin cfg0.N) (i : S8x256x256x64.Idx) :
    i ∈ ((cfg0.win 13).blk t).view.set ↔ ∀ a : Fin 4, win0_13.index t a * S1x32x256x64.size a ≤ (i a).val ∧ (i a).val < win0_13.index t a * S1x32x256x64.size a + S1x32x256x64.size a := by
  show i ∈ ((View.whole main_v0_1).slice (win0_13.rect t)).set ↔ _
  rw [View.set_slice_whole, Rect.mem_set_unit]
  exact Iff.rfl

/-- Row i of batch b lies in the block of point  b · 8 + i / 32. -/
def ptOf (b : Nat) (i : Nat) (hb : b < 8) (hi : i < 256) : Fin cfg0.N := ⟨b * 8 + i / 32, by show b * 8 + i / 32 < 64; omega⟩

theorem cover12 (i : S8x256x64.Idx) : ∃ t : Fin cfg0.N, (cfg0.win 12).flush t = true ∧ i ∈ ((cfg0.win 12).blk t).view.set := by
  have h0 : (i 0).val < 8 := (i 0).isLt
  have h1 : (i 1).val < 256 := (i 1).isLt
  have h2 : (i 2).val < 64 := (i 2).isLt
  refine ⟨ptOf (i 0).val (i 1).val h0 h1, flush0_12 _, ?_⟩
  obtain ⟨-, -, -, -, -, -, -, -, -, -, -, -, -, -, e0, e1, e2, -⟩ := idx_facts (ptOf (i 0).val (i 1).val h0 h1)
  have hv : (ptOf (i 0).val (i 1).val h0 h1).val = (i 0).val * 8 + (i 1).val / 32 := rfl
  rw [mem_blk12]
  intro a
  match a with
  | ⟨0, _⟩ => show win0_12.index _ (0 : Fin 3) * 1 ≤ (i 0).val ∧ (i 0).val < win0_12.index _ (0 : Fin 3) * 1 + 1; omega
  | ⟨1, _⟩ => show win0_12.index _ (1 : Fin 3) * 32 ≤ (i 1).val ∧ (i 1).val < win0_12.index _ (1 : Fin 3) * 32 + 32; omega
  | ⟨2, _⟩ => show win0_12.index _ (2 : Fin 3) * 64 ≤ (i 2).val ∧ (i 2).val < win0_12.index _ (2 : Fin 3) * 64 + 64; omega

theorem cover13 (i : S8x256x256x64.Idx) : ∃ t : Fin cfg0.N, (cfg0.win 13).flush t = true ∧ i ∈ ((cfg0.win 13).blk t).view.set := by
  have h0 : (i 0).val < 8 := (i 0).isLt
  have h1 : (i 1).val < 256 := (i 1).isLt
  have h2 : (i 2).val < 256 := (i 2).isLt
  have h3 : (i 3).val < 64 := (i 3).isLt
  refine ⟨ptOf (i 0).val (i 1).val h0 h1, flush0_13 _, ?_⟩
  obtain ⟨-, -, -, -, -, -, -, -, -, -, -, -, -, -, -, -, -, e0, e1, e2, e3⟩ := idx_facts (ptOf (i 0).val (i 1).val h0 h1)
  have hv : (ptOf (i 0).val (i 1).val h0 h1).val = (i 0).val * 8 + (i 1).val / 32 := rfl
  rw [mem_blk13]
  intro a
  match a with
  | ⟨0, _⟩ => show win0_13.index _ (0 : Fin 4) * 1 ≤ (i 0).val ∧ (i 0).val < win0_13.index _ (0 : Fin 4) * 1 + 1; omega
  | ⟨1, _⟩ => show win0_13.index _ (1 : Fin 4) * 32 ≤ (i 1).val ∧ (i 1).val < win0_13.index _ (1 : Fin 4) * 32 + 32; omega
  | ⟨2, _⟩ => show win0_13.index _ (2 : Fin 4) * 256 ≤ (i 2).val ∧ (i 2).val < win0_13.index _ (2 : Fin 4) * 256 + 256; omega
  | ⟨3, _⟩ => show win0_13.index _ (3 : Fin 4) * 64 ≤ (i 3).val ∧ (i 3).val < win0_13.index _ (3 : Fin 4) * 64 + 64; omega

/-! ## The result arrays after the run -/

theorem final12 (hE : EntityTile) (c : Dev nD) : (dats m 0 c).arrAt 12 cfg0.N = entityOf m c :=
  (dats m 0 c).arrAt_eq_of_cover 12 (entityOf m c) (fun t _ => flushed12_eq m hE c t) cover12

theorem final13 (hP : PairTile) (c : Dev nD) : (dats m 0 c).arrAt 13 cfg0.N = pairOf m c :=
  (dats m 0 c).arrAt_eq_of_cover 13 (pairOf m c) (fun t _ => flushed13_eq m hP c t) cover13

end Cert.KernelIdeal.Whole

end
-- ==== Proof.LibNary3.lean ====
/-
  A general lemma about the run of a line of host operations.

  `StableHlo.nary` is an operation that reads a FAMILY of buffers (a concatenate of several operands prints as one).
  Its general result lemma leaves the operands' contents under a binder, `fun k => F ↑(xs k)`, where the reference
  `xs k` is no literal, so that nothing rewrites the operands' own contents any further.  For a literal family of
  THREE references, and an operation whose function reads the family only at its three members, the result is stated
  here as that function of the three operands' contents, each read at its own reference.
-/
import Idealize.ShloMosaic.Lib.StableHlo.Run

noncomputable section

namespace Cert.Lib

open Idealize.ShloMosaic Idealize.ShloMosaic.StableHlo

variable {τ : Topo} {sig : RefSig} {Val : EltTy → Type}
variable {x a b y : Ref sig .tc}

/-- The result of an operation over the three references `![x, a, b]` at its result buffer, when its function `f` of the
    family is a function `g` of the family's three members (`hf`: by unfolding, for a function written `fun u => … u 0 …
    u 1 … u 2 …`): `g` of the three operands' contents, each at its own reference. -/
theorem nary3_result_of
    (g : x.ty.Contents Val → a.ty.Contents Val → b.ty.Contents Val → y.ty.Contents Val)
    (f : ((k : Fin 3) → ((![x, a, b] : Fin 3 → Ref sig .tc) k).ty.Contents Val) → y.ty.Contents Val)
    (hf : ∀ u, f u = g (u 0) (u 1) (u 2)) (hxs hy) (F : Valuation τ sig Val) :
    (nary (τ := τ) ![x, a, b] y f hxs hy).result F (Proc.devRef .tc y)
      = g (F (Proc.devRef .tc x)) (F (Proc.devRef .tc a)) (F (Proc.devRef .tc b)) := by
  rw [nary_result, hf]; rfl

end Cert.Lib

end
-- ==== Proof.Assembly.lean ====
/-
  The certificate's five claims from their parts.

  The frames of the kernel's two programs are their region's run with the results dropped: every argument array is an
  input window's array, which no write-back touches.  The reference has no kernel: its frame is its run with the results
  dropped.  The idealization rewrote nothing, so there is nothing to preserve.  For the value claim both programs end
  with the layer's two functions (Spec.lean) of the argument arrays: the kernel because each point writes back its block
  of them and the blocks tile the results, the reference because its host operations compose to them, index by index;
  the arguments agree, so the results do.  The four facts this rests on beyond the runs — what a tile's payload is at an
  entry (two), and what the reference's two result stages are — are taken here as hypotheses and proved in modules of
  their own.
-/
import proofs.«177152_j25348896981151_1_alg».proof.Defs
import proofs.«177152_j25348896981151_1_alg».proof.Proof.Gen.Kernel
import proofs.«177152_j25348896981151_1_alg».proof.Proof.Gen.KernelIdeal
import proofs.«177152_j25348896981151_1_alg».proof.Proof.Gen.ReferenceIdeal
import proofs.«177152_j25348896981151_1_alg».proof.Proof.Gen.Pre_finite_inputs
import proofs.«177152_j25348896981151_1_alg».proof.Proof.RegionBits
import proofs.«177152_j25348896981151_1_alg».proof.Proof.RegionIdeal
import proofs.«177152_j25348896981151_1_alg».proof.Proof.KernelValue
import proofs.«177152_j25348896981151_1_alg».proof.Proof.RefRun
import proofs.«177152_j25348896981151_1_alg».proof.Proof.RefRead
import proofs.«177152_j25348896981151_1_alg».proof.Proof.Spec

noncomputable section

namespace Cert.Proof.Parts

open Idealize.ShloMosaic Idealize.ShloMosaic.TcCoe Idealize.SL.Sem

theorem frame_p : Cert.frame_Kernel := fun m ρ _ => Cert.Kernel.Region.frame m ρ

theorem frame_pi : Cert.frame_KernelIdeal := fun m ρ _ => Cert.KernelIdeal.Region.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The reference's first result stage is the entity-path function. -/
def RefEntity : Prop :=
  ∀ (x0 : (⟨Cert.ReferenceIdeal.S8x256x64, .f32⟩ : BufTy).Contents (Elt Ideal)) (x1 : (⟨Cert.ReferenceIdeal.S8x256x256x64, .f32⟩ : BufTy).Contents (Elt Ideal))
    (x2 : (⟨Cert.ReferenceIdeal.S192x128, .f32⟩ : BufTy).Contents (Elt Ideal)) (x3 : (⟨Cert.ReferenceIdeal.S128, .f32⟩ : BufTy).Contents (Elt Ideal))
    (x4 : (⟨Cert.ReferenceIdeal.S128x64, .f32⟩ : BufTy).Contents (Elt Ideal)) (x5 : (⟨Cert.ReferenceIdeal.S64, .f32⟩ : BufTy).Contents (Elt Ideal)),
    Cert.ReferenceIdeal.Read.val_main_v16 (F := Ideal) x0 x1 x2 x3 x4 x5 = Cert.Spec.outEntity x0 x1 x2 x3 x4 x5

/-- The reference's second result stage is the pair-path function. -/
def RefPair : Prop :=
  ∀ (x0 : (⟨Cert.ReferenceIdeal.S8x256x64, .f32⟩ : BufTy).Contents (Elt Ideal)) (x1 : (⟨Cert.ReferenceIdeal.S8x256x256x64, .f32⟩ : BufTy).Contents (Elt Ideal))
    (x6 : (⟨Cert.ReferenceIdeal.S256x256, .f32⟩ : BufTy).Contents (Elt Ideal)) (x7 : (⟨Cert.ReferenceIdeal.S256, .f32⟩ : BufTy).Contents (Elt Ideal))
    (x8 : (⟨Cert.ReferenceIdeal.S256x64, .f32⟩ : BufTy).Contents (Elt Ideal)) (x9 : (⟨Cert.ReferenceIdeal.S64, .f32⟩ : BufTy).Contents (Elt Ideal)),
    Cert.ReferenceIdeal.Read.val_main_v25 (F := Ideal) x0 x1 x6 x7 x8 x9 = Cert.Spec.outPair x0 x1 x6 x7 x8 x9

/-- The kernel's run at the ideal instance with both results named: the layer's two functions of the arguments. -/
theorem kernel_run (hE : Cert.KernelIdeal.Whole.EntityTile) (hP : Cert.KernelIdeal.Whole.PairTile)
    (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0_0) = Cert.KernelIdeal.Whole.entityOf m c
      ∧ r.2.mem ((c.tc : Thread Cert.KernelIdeal.nD Cert.KernelIdeal.τ).loc Cert.KernelIdeal.main_v0_1) = Cert.KernelIdeal.Whole.pairOf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun _ h c =>
    ⟨((h c) 12).trans (Cert.KernelIdeal.Whole.final12 m hE c), ((h c) 13).trans (Cert.KernelIdeal.Whole.final13 m hP c),
       ((h c) 0).trans ((Cert.KernelIdeal.Region.dats m 0 c).arrAt_in 0 rfl _),
       ((h c) 2).trans ((Cert.KernelIdeal.Region.dats m 0 c).arrAt_in 2 rfl _),
       ((h c) 4).trans ((Cert.KernelIdeal.Region.dats m 0 c).arrAt_in 4 rfl _),
       ((h c) 5).trans ((Cert.KernelIdeal.Region.dats m 0 c).arrAt_in 5 rfl _),
       ((h c) 6).trans ((Cert.KernelIdeal.Region.dats m 0 c).arrAt_in 6 rfl _),
       ((h c) 7).trans ((Cert.KernelIdeal.Region.dats m 0 c).arrAt_in 7 rfl _),
       ((h c) 8).trans ((Cert.KernelIdeal.Region.dats m 0 c).arrAt_in 8 rfl _),
       ((h c) 9).trans ((Cert.KernelIdeal.Region.dats m 0 c).arrAt_in 9 rfl _),
       ((h c) 10).trans ((Cert.KernelIdeal.Region.dats m 0 c).arrAt_in 10 rfl _),
       ((h c) 11).trans ((Cert.KernelIdeal.Region.dats m 0 c).arrAt_in 11 rfl _)⟩)
    (Cert.KernelIdeal.Region.run_main m ρ)

theorem algebraic_of (hE : Cert.KernelIdeal.Whole.EntityTile) (hP : Cert.KernelIdeal.Whole.PairTile) (hRE : RefEntity) (hRP : RefPair) :
    Cert.algebraic_KernelIdeal_ReferenceIdeal := by
  intro m ρ m' ρ' _ hagree
  refine ⟨fun c => Cert.KernelIdeal.Whole.entityOf m c, fun c => Cert.KernelIdeal.Whole.pairOf m c, kernel_run hE hP m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, -⟩ := hagree c
    rw [Cert.ReferenceIdeal.Read.val_main_v16_eq, hRE, a0, a1, a2, a3, a4, a5]
  · obtain ⟨a0, a1, -, -, -, -, a6, a7, a8, a9⟩ := hagree c
    rw [Cert.ReferenceIdeal.Read.val_main_v25_eq, hRP, a0, a1, a6, a7, a8, a9]

end Cert.Proof.Parts

end
-- ==== Proof.PayEntity.lean ====
/-
  The entity path's tile, read at one of its entries: the body's value at (row r, output o) is the perceptron of the
  feature row made of the tile's row r of `emb1` and the feature-wise maximum and minimum over j of its rows (r, j)
  of `emb2`.
-/
import proofs.«177152_j25348896981151_1_alg».proof.Proof.Gen.KernelIdeal.Skeleton
import proofs.«177152_j25348896981151_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Spec

/-- A bias vector cast to one row and broadcast over the rows, read at (r, h). -/
theorem entity_bias128_apply (b : Vec Ideal S128 .f32) (r : Fin 32) (h : Fin 128) :
    broadcastTo S32x128 (shapeCast S1x128 b shapeCasts_S128_S1x128) broadcasts_S1x128_S32x128 (ix2 r h) = b (ix1 h) :=
  (broadcastTo_1b_ab_apply _ broadcasts_S1x128_S32x128 r h).trans (shapeCast_a_1a_apply b shapeCasts_S128_S1x128 0 h)

theorem entity_bias64_apply (b : Vec Ideal S64 .f32) (r : Fin 32) (o : Fin 64) :
    broadcastTo S32x64 (shapeCast S1x64 b shapeCasts_S64_S1x64) broadcasts_S1x64_S32x64 (ix2 r o) = b (ix1 o) :=
  (broadcastTo_1b_ab_apply _ broadcasts_S1x64_S32x64 r o).trans (shapeCast_a_1a_apply b shapeCasts_S64_S1x64 0 o)

/-- The entity block without its leading unit axis, read at (r, d). -/
theorem entity_pay3_apply (x0 : Vec Ideal S1x32x64 .f32) (r : Fin 32) (d : Fin 64) :
    k0_pay3 (F := Ideal) x0 (ix2 r d) = x0 (ix3 (0 : Fin 1) r d) :=
  shapeCast_1ab_ab_apply x0 shapeCasts_S1x32x64_S32x64 r d

/-- The pair block without its leading unit axis, read at (r, j, d). -/
theorem entity_pay5_apply (x2 : Vec Ideal S1x32x256x64 .f32) (r : Fin 32) (j : Fin 256) (d : Fin 64) :
    k0_pay5 (F := Ideal) x2 (ix3 r j d) = x2 (ix4 (0 : Fin 1) r j d) :=
  shapeCast_1abc_abc_apply x2 shapeCasts_S1x32x256x64_S32x256x64 r j d

/-- The stored tile is the computed one under a leading unit axis. -/
theorem entity_pay1_apply (v : FVec Ideal S32x64 .f32) (r : Fin 32) (o : Fin 64) :
    k0_pay1 (F := Ideal) v (ix3 (0 : Fin 1) r o) = v (ix2 r o) :=
  shapeCast_ab_1ab_apply v shapeCasts_S32x64_S1x32x64 0 r o

/-- The source index over (r, d) with coordinate j on the reduced axis is (r, j, d). -/
theorem entity_lift_ix (r : Fin 32) (j : Fin 256) (d : Fin 64) :
    reduces_S32x256x64_S32x64.lift (ix2 r d) j = ix3 r j d := by
  funext a
  match a with
  | ⟨0, _⟩ => rfl
  | ⟨1, _⟩ => rfl
  | ⟨2, _⟩ => rfl

/-- The maximum over the middle axis, read at (r, d): the fold of max from −∞ over j. -/
theorem entity_redmax_apply (src : FVec Ideal S32x256x64 .f32) (hφ : FKind.Formats .f32)
    (hacc : (0xFF800000#32 : BitVec 32) = FKind.maximumf.neutral .f32 hφ) (r : Fin 32) (d : Fin 64) :
    multiReduction (F := Ideal) .maximumf [1] S32x64 src 0xFF800000#32 reduces_S32x256x64_S32x64 hφ hacc (ix2 r d)
      = (Finset.univ : Finset (Fin 256)).fold max negInf (fun j => src (ix3 r j d)) := by
  refine (Ideal.multiReduction_maximumf_single src _ reduces_S32x256x64_S32x64 hφ hacc (ix2 r d)).trans ?_
  refine congrArg (fun f => (Finset.univ : Finset (Fin 256)).fold max negInf f) (funext fun j => ?_)
  exact congrArg src (entity_lift_ix r j d)

/-- The minimum over the middle axis, read at (r, d): the fold of min from +∞ over j. -/
theorem entity_redmin_apply (src : FVec Ideal S32x256x64 .f32) (hφ : FKind.Formats .f32)
    (hacc : (0x7F800000#32 : BitVec 32) = FKind.minimumf.neutral .f32 hφ) (r : Fin 32) (d : Fin 64) :
    multiReduction (F := Ideal) .minimumf [1] S32x64 src 0x7F800000#32 reduces_S32x256x64_S32x64 hφ hacc (ix2 r d)
      = (Finset.univ : Finset (Fin 256)).fold min posInf (fun j => src (ix3 r j d)) := by
  refine (multiReduction_minimumf_eq_fold src _ reduces_S32x256x64_S32x64 hφ hacc (ix2 r d)).trans ?_
  refine (reduces_S32x256x64_S32x64.fold_filter_drop_single _ _ src (ix2 r d)).trans ?_
  refine congrArg (fun f => (Finset.univ : Finset (Fin 256)).fold min posInf f) (funext fun j => ?_)
  exact congrArg src (entity_lift_ix r j d)

theorem entity_lhs_mmA_0 (i : S32x128.Idx) (q : dot_S32x192_S192x128_S32x128_1_0_0_1_n_n.contr.Idx) :
    (dot_S32x192_S192x128_S32x128_1_0_0_1_n_n.lhsIdx i q 0).val = (i 0).val := by
  unfold DotDims.lhsIdx
  rw [dif_neg (show ¬(0 : Fin S32x192.rank) ∈ dot_S32x192_S192x128_S32x128_1_0_0_1_n_n.lhsBatch by decide), dif_pos (show (0 : Fin S32x192.rank) ∈ dot_S32x192_S192x128_S32x128_1_0_0_1_n_n.lhsNonContracting by decide)]
  rfl
theorem entity_lhs_mmA_1 (i : S32x128.Idx) (q : dot_S32x192_S192x128_S32x128_1_0_0_1_n_n.contr.Idx) :
    (dot_S32x192_S192x128_S32x128_1_0_0_1_n_n.lhsIdx i q 1).val = (q ⟨0, by decide⟩).val :=
  dot_S32x192_S192x128_S32x128_1_0_0_1_n_n.lhsIdx_val_of_single rfl i q
theorem entity_rhs_mmA_0 (i : S32x128.Idx) (q : dot_S32x192_S192x128_S32x128_1_0_0_1_n_n.contr.Idx) :
    (dot_S32x192_S192x128_S32x128_1_0_0_1_n_n.rhsIdx i q 0).val = (q ⟨0, by decide⟩).val :=
  dot_S32x192_S192x128_S32x128_1_0_0_1_n_n.rhsIdx_val_of_single rfl i q
theorem entity_rhs_mmA_1 (i : S32x128.Idx) (q : dot_S32x192_S192x128_S32x128_1_0_0_1_n_n.contr.Idx) :
    (dot_S32x192_S192x128_S32x128_1_0_0_1_n_n.rhsIdx i q 1).val = (i 1).val := by
  unfold DotDims.rhsIdx
  rw [dif_neg (show ¬(1 : Fin S192x128.rank) ∈ dot_S32x192_S192x128_S32x128_1_0_0_1_n_n.rhsBatch by decide), dif_pos (show (1 : Fin S192x128.rank) ∈ dot_S32x192_S192x128_S32x128_1_0_0_1_n_n.rhsNonContracting by decide)]
  rfl

/-- The product into the zero splat, read at (r, c): the sum over the 192 contracted features. -/
theorem entity_mmA_apply (lhs : FVec Ideal S32x192 .bf16) (rhs : FVec Ideal S192x128 .bf16) (r : Fin 32) (c : Fin 128) :
    matmul dot_S32x192_S192x128_S32x128_1_0_0_1_n_n none lhs rhs (constant (F := Ideal) S32x128 .f32 0x00000000#32) (ix2 r c)
      = ∑ k : Fin 192, lhs (ix2 r k) * rhs (ix2 k c) := by
  refine (Ideal.matmul_constant_zero_apply dot_S32x192_S192x128_S32x128_1_0_0_1_n_n none lhs rhs (ix2 r c)).trans ?_
  rw [← Equiv.sum_comp (ValueIdx.contrEquiv1 dot_S32x192_S192x128_S32x128_1_0_0_1_n_n 192 rfl rfl).symm]
  refine Finset.sum_congr rfl fun k _ => ?_
  have hk := ValueIdx.contrEquiv1_symm_val dot_S32x192_S192x128_S32x128_1_0_0_1_n_n 192 rfl rfl k
  have el : dot_S32x192_S192x128_S32x128_1_0_0_1_n_n.lhsIdx (ix2 r c) ((ValueIdx.contrEquiv1 dot_S32x192_S192x128_S32x128_1_0_0_1_n_n 192 rfl rfl).symm k) = ix2 r k := funext fun a => Fin.ext (by
    match a with
    | ⟨0, _⟩ => exact entity_lhs_mmA_0 _ _
    | ⟨1, _⟩ => exact (entity_lhs_mmA_1 _ _).trans hk)
  have er : dot_S32x192_S192x128_S32x128_1_0_0_1_n_n.rhsIdx (ix2 r c) ((ValueIdx.contrEquiv1 dot_S32x192_S192x128_S32x128_1_0_0_1_n_n 192 rfl rfl).symm k) = ix2 k c := funext fun a => Fin.ext (by
    match a with
    | ⟨0, _⟩ => exact (entity_rhs_mmA_0 _ _).trans hk
    | ⟨1, _⟩ => exact entity_rhs_mmA_1 _ _)
  rw [el, er]

theorem entity_lhs_mmB_0 (i : S32x64.Idx) (q : dot_S32x128_S128x64_S32x64_1_0_0_1_n_n.contr.Idx) :
    (dot_S32x128_S128x64_S32x64_1_0_0_1_n_n.lhsIdx i q 0).val = (i 0).val := by
  unfold DotDims.lhsIdx
  rw [dif_neg (show ¬(0 : Fin S32x128.rank) ∈ dot_S32x128_S128x64_S32x64_1_0_0_1_n_n.lhsBatch by decide), dif_pos (show (0 : Fin S32x128.rank) ∈ dot_S32x128_S128x64_S32x64_1_0_0_1_n_n.lhsNonContracting by decide)]
  rfl
theorem entity_lhs_mmB_1 (i : S32x64.Idx) (q : dot_S32x128_S128x64_S32x64_1_0_0_1_n_n.contr.Idx) :
    (dot_S32x128_S128x64_S32x64_1_0_0_1_n_n.lhsIdx i q 1).val = (q ⟨0, by decide⟩).val :=
  dot_S32x128_S128x64_S32x64_1_0_0_1_n_n.lhsIdx_val_of_single rfl i q
theorem entity_rhs_mmB_0 (i : S32x64.Idx) (q : dot_S32x128_S128x64_S32x64_1_0_0_1_n_n.contr.Idx) :
    (dot_S32x128_S128x64_S32x64_1_0_0_1_n_n.rhsIdx i q 0).val = (q ⟨0, by decide⟩).val :=
  dot_S32x128_S128x64_S32x64_1_0_0_1_n_n.rhsIdx_val_of_single rfl i q
theorem entity_rhs_mmB_1 (i : S32x64.Idx) (q : dot_S32x128_S128x64_S32x64_1_0_0_1_n_n.contr.Idx) :
    (dot_S32x128_S128x64_S32x64_1_0_0_1_n_n.rhsIdx i q 1).val = (i 1).val := by
  unfold DotDims.rhsIdx
  rw [dif_neg (show ¬(1 : Fin S128x64.rank) ∈ dot_S32x128_S128x64_S32x64_1_0_0_1_n_n.rhsBatch by decide), dif_pos (show (1 : Fin S128x64.rank) ∈ dot_S32x128_S128x64_S32x64_1_0_0_1_n_n.rhsNonContracting by decide)]
  rfl

/-- The product into the zero splat, read at (r, c): the sum over the 128 contracted features. -/
theorem entity_mmB_apply (lhs : FVec Ideal S32x128 .bf16) (rhs : FVec Ideal S128x64 .bf16) (r : Fin 32) (c : Fin 64) :
    matmul dot_S32x128_S128x64_S32x64_1_0_0_1_n_n none lhs rhs (constant (F := Ideal) S32x64 .f32 0x00000000#32) (ix2 r c)
      = ∑ k : Fin 128, lhs (ix2 r k) * rhs (ix2 k c) := by
  refine (Ideal.matmul_constant_zero_apply dot_S32x128_S128x64_S32x64_1_0_0_1_n_n none lhs rhs (ix2 r c)).trans ?_
  rw [← Equiv.sum_comp (ValueIdx.contrEquiv1 dot_S32x128_S128x64_S32x64_1_0_0_1_n_n 128 rfl rfl).symm]
  refine Finset.sum_congr rfl fun k _ => ?_
  have hk := ValueIdx.contrEquiv1_symm_val dot_S32x128_S128x64_S32x64_1_0_0_1_n_n 128 rfl rfl k
  have el : dot_S32x128_S128x64_S32x64_1_0_0_1_n_n.lhsIdx (ix2 r c) ((ValueIdx.contrEquiv1 dot_S32x128_S128x64_S32x64_1_0_0_1_n_n 128 rfl rfl).symm k) = ix2 r k := funext fun a => Fin.ext (by
    match a with
    | ⟨0, _⟩ => exact entity_lhs_mmB_0 _ _
    | ⟨1, _⟩ => exact (entity_lhs_mmB_1 _ _).trans hk)
  have er : dot_S32x128_S128x64_S32x64_1_0_0_1_n_n.rhsIdx (ix2 r c) ((ValueIdx.contrEquiv1 dot_S32x128_S128x64_S32x64_1_0_0_1_n_n 128 rfl rfl).symm k) = ix2 k c := funext fun a => Fin.ext (by
    match a with
    | ⟨0, _⟩ => exact (entity_rhs_mmB_0 _ _).trans hk
    | ⟨1, _⟩ => exact entity_rhs_mmB_1 _ _)
  rw [el, er]

/-- The three blocks side by side, read at (r, k): block ⌊k / 64⌋ at (r, k mod 64). -/
theorem entity_cat_apply_0 (A B C : FVec Ideal S32x64 .f32) (r : Fin 32) (k : Fin 192) (hk : k.val < 64) :
    concatenate S32x192 1 [⟨S32x64, A⟩, ⟨S32x64, B⟩, ⟨S32x64, C⟩] concatenates_S32x64_S32x64_S32x64_S32x192_d1 (ix2 r k)
      = A (ix2 r ⟨k.val, hk⟩) :=
  concatenate_apply_piece (t := S32x192) 1 [⟨S32x64, A⟩, ⟨S32x64, B⟩, ⟨S32x64, C⟩]
    concatenates_S32x64_S32x64_S32x64_S32x192_d1 (ix2 r k) 0 (Nat.zero_lt_succ _) S32x64 A rfl rfl 0 rfl
    (ix2 r ⟨k.val, hk⟩) (fun b => match b with | ⟨0, _⟩ => fun _ => rfl | ⟨1, _⟩ => fun hne => absurd rfl hne)
    (Nat.zero_add _)

theorem entity_cat_apply_1 (A B C : FVec Ideal S32x64 .f32) (r : Fin 32) (k : Fin 192) (h₁ : ¬ k.val < 64) (h₂ : k.val < 128) :
    concatenate S32x192 1 [⟨S32x64, A⟩, ⟨S32x64, B⟩, ⟨S32x64, C⟩] concatenates_S32x64_S32x64_S32x64_S32x192_d1 (ix2 r k)
      = B (ix2 r ⟨k.val - 64, by omega⟩) :=
  concatenate_apply_piece (t := S32x192) 1 [⟨S32x64, A⟩, ⟨S32x64, B⟩, ⟨S32x64, C⟩]
    concatenates_S32x64_S32x64_S32x64_S32x192_d1 (ix2 r k) 1 (by show 1 < 3; omega) S32x64 B rfl rfl 64 rfl
    (ix2 r ⟨k.val - 64, by omega⟩) (fun b => match b with | ⟨0, _⟩ => fun _ => rfl | ⟨1, _⟩ => fun hne => absurd rfl hne)
    (show 64 + (k.val - 64) = k.val by omega)

theorem entity_cat_apply_2 (A B C : FVec Ideal S32x64 .f32) (r : Fin 32) (k : Fin 192) (h₂ : ¬ k.val < 128) :
    concatenate S32x192 1 [⟨S32x64, A⟩, ⟨S32x64, B⟩, ⟨S32x64, C⟩] concatenates_S32x64_S32x64_S32x64_S32x192_d1 (ix2 r k)
      = C (ix2 r ⟨k.val - 128, by omega⟩) :=
  concatenate_apply_piece (t := S32x192) 1 [⟨S32x64, A⟩, ⟨S32x64, B⟩, ⟨S32x64, C⟩]
    concatenates_S32x64_S32x64_S32x64_S32x192_d1 (ix2 r k) 2 (by show 2 < 3; omega) S32x64 C rfl rfl 128 rfl
    (ix2 r ⟨k.val - 128, by omega⟩) (fun b => match b with | ⟨0, _⟩ => fun _ => rfl | ⟨1, _⟩ => fun hne => absurd rfl hne)
    (show 128 + (k.val - 128) = k.val by omega)

/-- The 192 features of row r as the kernel assembles them are the entity path's feature row. -/
theorem entity_feat_apply (x0 : Vec Ideal S1x32x64 .f32) (x2 : Vec Ideal S1x32x256x64 .f32) (hφ : FKind.Formats .f32)
    (hmax : (0xFF800000#32 : BitVec 32) = FKind.maximumf.neutral .f32 hφ)
    (hmin : (0x7F800000#32 : BitVec 32) = FKind.minimumf.neutral .f32 hφ) (r : Fin 32) (k : Fin 192) :
    concatenate S32x192 1
        [⟨S32x64, k0_pay3 (F := Ideal) x0⟩,
         ⟨S32x64, multiReduction (F := Ideal) .maximumf [1] S32x64 (k0_pay5 (F := Ideal) x2) 0xFF800000#32 reduces_S32x256x64_S32x64 hφ hmax⟩,
         ⟨S32x64, multiReduction (F := Ideal) .minimumf [1] S32x64 (k0_pay5 (F := Ideal) x2) 0x7F800000#32 reduces_S32x256x64_S32x64 hφ hmin⟩]
        concatenates_S32x64_S32x64_S32x64_S32x192_d1 (ix2 r k)
      = rowEntity (fun d => x0 (ix3 (0 : Fin 1) r d)) (fun j d => x2 (ix4 (0 : Fin 1) r j d)) k := by
  unfold rowEntity
  by_cases h₁ : k.val < 64
  · rw [dif_pos h₁]
    exact (entity_cat_apply_0 _ _ _ r k h₁).trans (entity_pay3_apply x0 r _)
  · rw [dif_neg h₁]
    by_cases h₂ : k.val < 128
    · rw [dif_pos h₂]
      refine (entity_cat_apply_1 _ _ _ r k h₁ h₂).trans ((entity_redmax_apply _ hφ hmax r _).trans ?_)
      exact congrArg (fun f => (Finset.univ : Finset (Fin 256)).fold max negInf f) (funext fun j => entity_pay5_apply x2 r j _)
    · rw [dif_neg h₂]
      refine (entity_cat_apply_2 _ _ _ r k h₂).trans ((entity_redmin_apply _ hφ hmin r _).trans ?_)
      exact congrArg (fun f => (Finset.univ : Finset (Fin 256)).fold min posInf f) (funext fun j => entity_pay5_apply x2 r j _)

/-- THE ENTITY TILE AT (r, o): the perceptron of row r's feature row. -/
theorem pay_entity (x0 : Vec Ideal S1x32x64 .f32) (x2 : Vec Ideal S1x32x256x64 .f32) (x4 : Vec Ideal S192x128 .f32)
    (x5 : Vec Ideal S128 .f32) (x6 : Vec Ideal S128x64 .f32) (x7 : Vec Ideal S64 .f32) (r : Fin 32) (o : Fin 64) :
    k0_pay1 (F := Ideal) (k0_pay7 x0 x2 x4 x5 x6 x7) (ix3 (0 : Fin 1) r o)
      = mlp x4 x5 x6 x7 (rowEntity (fun d => x0 (ix3 (0 : Fin 1) r d)) (fun j d => x2 (ix4 (0 : Fin 1) r j d))) o := by
  refine (entity_pay1_apply _ r o).trans ?_
  unfold k0_pay7 mlp
  simp only [addf_apply, maximumf_apply, truncf_apply, broadcast_apply, entity_mmB_apply, entity_mmA_apply]
  refine congrArg₂ (· + ·) (Finset.sum_congr rfl fun h _ => ?_) (entity_bias64_apply x7 r o)
  refine congrArg (· * x6 (ix2 h o)) ?_
  refine congrArg₂ max ?_ Ideal.ofBits_zero_f32
  refine congrArg₂ (· + ·) (Finset.sum_congr rfl fun k _ => ?_) (entity_bias128_apply x5 r h)
  exact congrArg (· * x4 (ix2 k h)) (entity_feat_apply x0 x2 _ _ _ r k)

end Cert.KernelIdeal.Tile

end
-- ==== Proof.PayPair.lean ====
/-
  The pair path's tile, read at one of its entries: the body's value at (row r, column j, output o) is the perceptron
  of the feature row made of `emb1` at j, the transposed tile of `emb2` at (j, r), `emb1`'s tile row r and `emb2`'s tile
  at (r, j).
-/
import proofs.«177152_j25348896981151_1_alg».proof.Proof.Gen.KernelIdeal.Skeleton
import proofs.«177152_j25348896981151_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Spec

/-! ## Layout operations read at explicit coordinates -/

section Layout
variable {α : Type}

/-- A stack of matrices with its first two axes swapped (permutation [1, 0, 2]) reads, at (j, i, e), the operand at
    (i, j, e). -/
theorem pair_transpose_102_apply {a b c : ℕ} (x : (⟨3, ![a, b, c]⟩ : Shape).Idx → α)
    (h : (⟨3, ![a, b, c]⟩ : Shape).Transposes [1, 0, 2] ⟨3, ![b, a, c]⟩) (j : Fin b) (i : Fin a) (e : Fin c) :
    transpose ⟨3, ![b, a, c]⟩ [1, 0, 2] x h (ix3 j i e) = x (ix3 i j e) :=
  transpose_apply _ x h _ _ fun ax => match ax with | ⟨0, _⟩ => rfl | ⟨1, _⟩ => rfl | ⟨2, _⟩ => rfl

/-- One [b, c] slab broadcast along a new leading axis reads, at (p, q, e), the slab at (q, e). -/
theorem pair_broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (e : Fin c) :
    broadcastTo ⟨3, ![a, b, c]⟩ v h (ix3 p q e) = v (ix3 (0 : Fin 1) q e) := by
  refine broadcastTo_apply v h (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

/-- An [a, 1, c] array broadcast along its unit middle axis reads, at (p, q, e), the operand at (p, 0, e). -/
theorem pair_broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- An [a, c] array cast to [a, 1, c] reads, at (p, u, e), the operand at (p, e). -/
theorem pair_shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_three, Shape.rowMajor_val_two]
    show p.val * c + e.val = (p.val * 1 + u.val) * c + e.val
    rw [hu, Nat.mul_one, Nat.add_zero])

/-- The row of the flattened [8192, ·] matrix that holds entry (r, j) of a [32, 256, ·] array. -/
abbrev pairFlatRow (r : Fin 32) (j : Fin 256) : Fin 8192 := ⟨r.val * 256 + j.val, by omega⟩

/-- A [32, 256, c] array cast to [8192, c] reads, at (r * 256 + j, e), the operand at (r, j, e). -/
theorem pair_shapeCast_flatten_apply {c : ℕ} (x : (⟨3, ![32, 256, c]⟩ : Shape).Idx → α)
    (h : (⟨3, ![32, 256, c]⟩ : Shape).ShapeCasts ⟨2, ![8192, c]⟩) (r : Fin 32) (j : Fin 256) (e : Fin c) :
    shapeCast ⟨2, ![8192, c]⟩ x h (ix2 (pairFlatRow r j) e) = x (ix3 r j e) :=
  shapeCast_apply x h _ _ (by
    rw [Shape.rowMajor_val_three, Shape.rowMajor_val_two]
    rfl)

/-- An [8192, c] array cast to [32, 256, c] reads, at (r, j, e), the operand at (r * 256 + j, e). -/
theorem pair_shapeCast_unflatten_apply {c : ℕ} (x : (⟨2, ![8192, c]⟩ : Shape).Idx → α)
    (h : (⟨2, ![8192, c]⟩ : Shape).ShapeCasts ⟨3, ![32, 256, c]⟩) (r : Fin 32) (j : Fin 256) (e : Fin c) :
    shapeCast ⟨3, ![32, 256, c]⟩ x h (ix3 r j e) = x (ix2 (pairFlatRow r j) e) :=
  shapeCast_apply x h _ _ (by
    rw [Shape.rowMajor_val_three, Shape.rowMajor_val_two]
    rfl)

end Layout

/-! ## The two matrix products as sums over the contracted position -/

theorem lhs_pairHid_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_pairHid_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_pairHid_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_pairHid_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The matrix product into the zero accumulator, read at (p, c): the sum over the 256 contracted positions of the left
    operand's row p times the right operand's column c. -/
theorem matmul_pairHid_apply {φ₁ φ₂ : FTy} (lhs : FVec Ideal S8192x256 φ₁) (rhs : FVec Ideal S256x256 φ₂) (p : Fin 8192) (c : Fin 256) :
    matmul dot_S8192x256_S256x256_S8192x256_1_0_0_1_n_n none lhs rhs (constant (F := Ideal) S8192x256 .f32 0x00000000#32) (ix2 p c)
      = ∑ k : Fin 256, lhs (ix2 p k) * rhs (ix2 k c) := by
  refine (Ideal.matmul_constant_zero_apply dot_S8192x256_S256x256_S8192x256_1_0_0_1_n_n none lhs rhs (ix2 p c)).trans ?_
  rw [← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 p c) ((ValueIdx.contrEquiv1 dot_S8192x256_S256x256_S8192x256_1_0_0_1_n_n 256 rfl rfl).symm k) = ix2 p k := funext fun a => Fin.ext (by
    match a with
    | ⟨0, _⟩ => exact lhs_pairHid_0 _ _
    | ⟨1, _⟩ => exact (lhs_pairHid_1 _ _).trans hk)
  have er : dot_S8192x256_S256x256_S8192x256_1_0_0_1_n_n.rhsIdx (ix2 p c) ((ValueIdx.contrEquiv1 dot_S8192x256_S256x256_S8192x256_1_0_0_1_n_n 256 rfl rfl).symm k) = ix2 k c := funext fun a => Fin.ext (by
    match a with
    | ⟨0, _⟩ => exact (rhs_pairHid_0 _ _).trans hk
    | ⟨1, _⟩ => exact rhs_pairHid_1 _ _)
  rw [el, er]

theorem lhs_pairOut_0 (i : S8192x64.Idx) (q : dot_S8192x256_S256x64_S8192x64_1_0_0_1_n_n.contr.Idx) :
    (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide), dif_pos (show (0 : Fin S8192x256.rank) ∈ dot_S8192x256_S256x64_S8192x64_1_0_0_1_n_n.lhsNonContracting by decide)]
  rfl
theorem lhs_pairOut_1 (i : S8192x64.Idx) (q : dot_S8192x256_S256x64_S8192x64_1_0_0_1_n_n.contr.Idx) :
    (dot_S8192x256_S256x64_S8192x64_1_0_0_1_n_n.lhsIdx i q 1).val = (q ⟨0, by decide⟩).val :=
  dot_S8192x256_S256x64_S8192x64_1_0_0_1_n_n.lhsIdx_val_of_single rfl i q
theorem rhs_pairOut_0 (i : S8192x64.Idx) (q : dot_S8192x256_S256x64_S8192x64_1_0_0_1_n_n.contr.Idx) :
    (dot_S8192x256_S256x64_S8192x64_1_0_0_1_n_n.rhsIdx i q 0).val = (q ⟨0, by decide⟩).val :=
  dot_S8192x256_S256x64_S8192x64_1_0_0_1_n_n.rhsIdx_val_of_single rfl i q
theorem rhs_pairOut_1 (i : S8192x64.Idx) (q : dot_S8192x256_S256x64_S8192x64_1_0_0_1_n_n.contr.Idx) :
    (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide), dif_pos (show (1 : Fin S256x64.rank) ∈ dot_S8192x256_S256x64_S8192x64_1_0_0_1_n_n.rhsNonContracting by decide)]
  rfl

/-- The matrix product into the zero accumulator, read at (p, c): the sum over the 256 contracted positions of the left
    operand's row p times the right operand's column c. -/
theorem matmul_pairOut_apply {φ₁ φ₂ : FTy} (lhs : FVec Ideal S8192x256 φ₁) (rhs : FVec Ideal S256x64 φ₂) (p : Fin 8192) (c : Fin 64) :
    matmul dot_S8192x256_S256x64_S8192x64_1_0_0_1_n_n none lhs rhs (constant (F := Ideal) S8192x64 .f32 0x00000000#32) (ix2 p c)
      = ∑ k : Fin 256, lhs (ix2 p k) * rhs (ix2 k c) := by
  refine (Ideal.matmul_constant_zero_apply dot_S8192x256_S256x64_S8192x64_1_0_0_1_n_n none lhs rhs (ix2 p c)).trans ?_
  rw [← Equiv.sum_comp (ValueIdx.contrEquiv1 dot_S8192x256_S256x64_S8192x64_1_0_0_1_n_n 256 rfl rfl).symm]
  refine Finset.sum_congr rfl fun k _ => ?_
  have hk := ValueIdx.contrEquiv1_symm_val dot_S8192x256_S256x64_S8192x64_1_0_0_1_n_n 256 rfl rfl k
  have el : dot_S8192x256_S256x64_S8192x64_1_0_0_1_n_n.lhsIdx (ix2 p c) ((ValueIdx.contrEquiv1 dot_S8192x256_S256x64_S8192x64_1_0_0_1_n_n 256 rfl rfl).symm k) = ix2 p k := funext fun a => Fin.ext (by
    match a with
    | ⟨0, _⟩ => exact lhs_pairOut_0 _ _
    | ⟨1, _⟩ => exact (lhs_pairOut_1 _ _).trans hk)
  have er : dot_S8192x256_S256x64_S8192x64_1_0_0_1_n_n.rhsIdx (ix2 p c) ((ValueIdx.contrEquiv1 dot_S8192x256_S256x64_S8192x64_1_0_0_1_n_n 256 rfl rfl).symm k) = ix2 k c := funext fun a => Fin.ext (by
    match a with
    | ⟨0, _⟩ => exact (rhs_pairOut_0 _ _).trans hk
    | ⟨1, _⟩ => exact rhs_pairOut_1 _ _)
  rw [el, er]

/-! ## The loaded blocks with their unit axis dropped, and the transposed tile -/

/-- The tile of `emb1` rows, at (r, d). -/
theorem pair_pay3_apply (x0 : Vec Ideal S1x32x64 .f32) (r : Fin 32) (d : Fin 64) :
    k0_pay3 (F := Ideal) x0 (ix2 r d) = x0 (ix3 (0 : Fin 1) r d) := by
  unfold k0_pay3
  exact shapeCast_1ab_ab_apply x0 _ r d

/-- The whole batch row of `emb1`, at (j, d). -/
theorem pair_pay4_apply (x1 : Vec Ideal S1x256x64 .f32) (j : Fin 256) (d : Fin 64) :
    k0_pay4 (F := Ideal) x1 (ix2 j d) = x1 (ix3 (0 : Fin 1) j d) := by
  unfold k0_pay4
  exact shapeCast_1ab_ab_apply x1 _ j d

/-- The tile of `emb2`, at (r, j, d). -/
theorem pair_pay5_apply (x2 : Vec Ideal S1x32x256x64 .f32) (r : Fin 32) (j : Fin 256) (d : Fin 64) :
    k0_pay5 (F := Ideal) x2 (ix3 r j d) = x2 (ix4 (0 : Fin 1) r j d) := by
  unfold k0_pay5
  exact shapeCast_1abc_abc_apply x2 _ r j d

/-- The transposed tile of `emb2`, at (r, j, d): the loaded block at (j, r, d). -/
theorem pair_pay6_apply (x3 : Vec Ideal S1x256x32x64 .f32) (r : Fin 32) (j : Fin 256) (d : Fin 64) :
    k0_pay6 (F := Ideal) x3 (ix3 r j d) = x3 (ix4 (0 : Fin 1) j r d) := by
  unfold k0_pay6
  refine (pair_transpose_102_apply _ _ r j d).trans ?_
  exact shapeCast_1abc_abc_apply x3 _ j r d

/-! ## The four blocks of 64 features side by side -/

/-- Four [32, 256, 64] pieces joined along the feature axis read, at (r, j, k), the piece the feature index k falls in,
    at k less the extents before it: the pair path's feature row. -/
theorem pair_concat4_apply (p0 p1 p2 p3 : FVec Ideal S32x256x64 .bf16)
    (h : Shape.Concatenates [S32x256x64, S32x256x64, S32x256x64, S32x256x64] S32x256x256 2)
    (r : Fin 32) (j : Fin 256) (k : Fin 256) :
    concatenate S32x256x256 2 [⟨S32x256x64, p0⟩, ⟨S32x256x64, p1⟩, ⟨S32x256x64, p2⟩, ⟨S32x256x64, p3⟩] h (ix3 r j k)
      = rowPair (fun d => p0 (ix3 r j d)) (fun d => p1 (ix3 r j d)) (fun d => p2 (ix3 r j d)) (fun d => p3 (ix3 r j d)) k := by
  have hoff : ∀ (q : Fin 64) (b : Fin S32x256x64.rank), b.cast (rfl : S32x256x64.rank = S32x256x256.rank) ≠ (2 : Fin S32x256x256.rank) →
      ((ix3 r j q : S32x256x64.Idx) b).val = ((ix3 r j k : S32x256x256.Idx) (b.cast rfl)).val := fun q b hb => by
    match b with
    | ⟨0, _⟩ => rfl
    | ⟨1, _⟩ => rfl
    | ⟨2, _⟩ => exact absurd rfl hb
  unfold rowPair
  by_cases h1 : k.val < 64
  · rw [dif_pos h1]
    exact concatenate_apply_piece 2 [⟨S32x256x64, p0⟩, ⟨S32x256x64, p1⟩, ⟨S32x256x64, p2⟩, ⟨S32x256x64, p3⟩] h (ix3 r j k) 0 (by show (0 : ℕ) < 4; omega) S32x256x64 p0 rfl rfl 0 rfl (ix3 r j ⟨k.val, h1⟩)
      (hoff _) (by show 0 + k.val = k.val; omega)
  · rw [dif_neg h1]
    by_cases h2 : k.val < 128
    · rw [dif_pos h2]
      exact concatenate_apply_piece 2 [⟨S32x256x64, p0⟩, ⟨S32x256x64, p1⟩, ⟨S32x256x64, p2⟩, ⟨S32x256x64, p3⟩] h (ix3 r j k) 1 (by show (1 : ℕ) < 4; omega) S32x256x64 p1 rfl rfl 64 rfl (ix3 r j ⟨k.val - 64, by omega⟩)
        (hoff _) (by show 64 + (k.val - 64) = k.val; omega)
    · rw [dif_neg h2]
      by_cases h3 : k.val < 192
      · rw [dif_pos h3]
        exact concatenate_apply_piece 2 [⟨S32x256x64, p0⟩, ⟨S32x256x64, p1⟩, ⟨S32x256x64, p2⟩, ⟨S32x256x64, p3⟩] h (ix3 r j k) 2 (by show (2 : ℕ) < 4; omega) S32x256x64 p2 rfl rfl 128 rfl (ix3 r j ⟨k.val - 128, by omega⟩)
          (hoff _) (by show 128 + (k.val - 128) = k.val; omega)
      · rw [dif_neg h3]
        exact concatenate_apply_piece 2 [⟨S32x256x64, p0⟩, ⟨S32x256x64, p1⟩, ⟨S32x256x64, p2⟩, ⟨S32x256x64, p3⟩] h (ix3 r j k) 3 (by show (3 : ℕ) < 4; omega) S32x256x64 p3 rfl rfl 192 rfl (ix3 r j ⟨k.val - 192, by have := k.isLt; omega⟩)
          (hoff _) (by show 192 + (k.val - 192) = k.val; omega)

/-! ## The four pieces of the feature row, each read at (r, j, d) -/

/-- The whole batch row of `emb1` broadcast over the tile's rows: at (r, j, d) it is the row's entry (j, d). -/
theorem pair_piece_bcastRows_apply (v3 : FVec Ideal S256x64 .f32) (r : Fin 32) (j : Fin 256) (d : Fin 64) :
    truncf .bf16 (broadcastTo S32x256x64 (shapeCast S1x256x64 (shapeCast S1x256x64 v3 shapeCasts_S256x64_S1x256x64)
      shapeCasts_S1x256x64_S1x256x64) broadcasts_S1x256x64_S32x256x64) bitsLt_bf16_f32 (ix3 r j d) = v3 (ix2 j d) := by
  refine (truncf_apply (φ := .f32) (ψ := .bf16) _ bitsLt_bf16_f32 _).trans ?_
  refine (pair_broadcastTo_1bc_abc_apply _ _ r j d).trans ?_
  rw [shapeCast_self]
  exact shapeCast_ab_1ab_apply v3 _ (0 : Fin 1) j d

/-- The tile's own `emb1` rows broadcast over the 256 columns: at (r, j, d) it is the tile's entry (r, d). -/
theorem pair_piece_bcastCols_apply (v1 : FVec Ideal S32x64 .f32) (r : Fin 32) (j : Fin 256) (d : Fin 64) :
    truncf .bf16 (broadcastTo S32x256x64 (shapeCast S32x1x64 (shapeCast S32x1x64 v1 shapeCasts_S32x64_S32x1x64)
      shapeCasts_S32x1x64_S32x1x64) broadcasts_S32x1x64_S32x256x64) bitsLt_bf16_f32 (ix3 r j d) = v1 (ix2 r d) := by
  refine (truncf_apply (φ := .f32) (ψ := .bf16) _ bitsLt_bf16_f32 _).trans ?_
  refine (pair_broadcastTo_a1c_abc_apply _ _ r j d).trans ?_
  rw [shapeCast_self]
  exact pair_shapeCast_ac_a1c_apply v1 _ r (0 : Fin 1) d

/-- The feature row depends on its four blocks only through their values. -/
theorem rowPair_congr {a a' b b' c c' d d' : Fin 64 → EReal} (ha : ∀ q, a q = a' q) (hb : ∀ q, b q = b' q)
    (hc : ∀ q, c q = c' q) (hd : ∀ q, d q = d' q) (k : Fin 256) : rowPair a b c d k = rowPair a' b' c' d' k := by
  rw [funext ha, funext hb, funext hc, funext hd]

/-- A bias vector cast to one row and broadcast over all rows reads, at (p, c), the bias at c. -/
theorem pair_bias_apply {n m : ℕ} (b : FVec Ideal ⟨1, ![m]⟩ .f32) (h₁ : (⟨1, ![m]⟩ : Shape).ShapeCasts ⟨2, ![1, m]⟩)
    (h₂ : (⟨2, ![1, m]⟩ : Shape).Broadcasts ⟨2, ![n, m]⟩) (p : Fin n) (c : Fin m) :
    broadcastTo ⟨2, ![n, m]⟩ (shapeCast ⟨2, ![1, m]⟩ b h₁) h₂ (ix2 p c) = b (ix1 c) :=
  (broadcastTo_1b_ab_apply _ _ p c).trans (shapeCast_a_1a_apply b _ (0 : Fin 1) c)

/-! ## The pair path's tile at one entry -/

theorem pay_pair (x0 : Vec Ideal S1x32x64 .f32) (x1 : Vec Ideal S1x256x64 .f32) (x2 : Vec Ideal S1x32x256x64 .f32)
    (x3 : Vec Ideal S1x256x32x64 .f32) (x8 : Vec Ideal S256x256 .f32) (x9 : Vec Ideal S256 .f32) (x10 : Vec Ideal S256x64 .f32)
    (x11 : Vec Ideal S64 .f32) (r : Fin 32) (j : Fin 256) (o : Fin 64) :
    k0_pay2 (F := Ideal) (k0_pay3 x0) (k0_pay4 x1) (k0_pay5 x2) (k0_pay6 x3) x8 x9 x10 x11 (ix4 (0 : Fin 1) r j o)
      = mlp x8 x9 x10 x11 (rowPair (fun d => x1 (ix3 (0 : Fin 1) j d)) (fun d => x3 (ix4 (0 : Fin 1) j r d))
          (fun d => x0 (ix3 (0 : Fin 1) r d)) (fun d => x2 (ix4 (0 : Fin 1) r j d))) o := by
  unfold k0_pay2 mlp
  -- the two trailing casts: [1, 32, 256, 64] ← [32, 256, 64] ← [8192, 64]
  refine (shapeCast_abc_1abc_apply _ _ (0 : Fin 1) r j o).trans ?_
  refine (pair_shapeCast_unflatten_apply _ _ r j o).trans ?_
  refine (addf_apply (φ := .f32) _ _ _).trans ?_
  refine congrArg₂ (· + ·) ?_ (pair_bias_apply x11 _ _ (pairFlatRow r j) o)
  -- the second product, over the 256 hidden units
  refine (matmul_pairOut_apply _ _ (pairFlatRow r j) o).trans ?_
  refine Finset.sum_congr rfl fun hh _ => ?_
  refine congrArg₂ (· * ·) ?_ rfl
  -- relu of the first product plus its bias
  refine (truncf_apply (φ := .f32) (ψ := .bf16) _ bitsLt_bf16_f32 _).trans ?_
  refine (maximumf_apply (φ := .f32) _ _ _).trans ?_
  refine congrArg₂ max ?_ Ideal.ofBits_zero_f32
  refine (addf_apply (φ := .f32) _ _ _).trans ?_
  refine congrArg₂ (· + ·) ?_ (pair_bias_apply x9 _ _ (pairFlatRow r j) hh)
  -- the first product, over the 256 features
  refine (matmul_pairHid_apply _ _ (pairFlatRow r j) hh).trans ?_
  refine Finset.sum_congr rfl fun k _ => ?_
  refine congrArg₂ (· * ·) ?_ rfl
  -- the feature row: the flattening cast, then the four pieces
  refine (pair_shapeCast_flatten_apply _ _ r j k).trans ?_
  refine (pair_concat4_apply _ _ _ _ _ r j k).trans ?_
  refine rowPair_congr (fun d => ?_) (fun d => ?_) (fun d => ?_) (fun d => ?_) k
  · exact (pair_piece_bcastRows_apply _ r j d).trans (pair_pay4_apply x1 j d)
  · exact (truncf_apply (φ := .f32) (ψ := .bf16) _ bitsLt_bf16_f32 _).trans (pair_pay6_apply x3 r j d)
  · exact (pair_piece_bcastCols_apply _ r j d).trans (pair_pay3_apply x0 r d)
  · exact (truncf_apply (φ := .f32) (ψ := .bf16) _ bitsLt_bf16_f32 _).trans (pair_pay5_apply x2 r j d)

end Cert.KernelIdeal.Tile

end
-- ==== Proof.RefEntity.lean ====
/-
  The reference's first result is the layer's entity-path function of the arguments (Spec.lean), index by index:
  its reductions over j are the folds of max and min, its concatenate lays the three blocks of 64 features side by
  side, and its two products with the biases and the relu are the perceptron.
-/
import proofs.«177152_j25348896981151_1_alg».proof.Proof.RefRun
import proofs.«177152_j25348896981151_1_alg».proof.Proof.RefRead
import proofs.«177152_j25348896981151_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Layer

open Idealize.ShloMosaic Idealize.ShloMosaic.ValueIdx Cert.ReferenceIdeal Cert.ReferenceIdeal.Gen Cert.ReferenceIdeal.Read Cert.Spec

/-- The reduce's shape fact in the form that names the inserted index. -/
theorem ref_entity_reduces : S8x256x256x64.Reduces [2] S8x256x64 := by decide

/-- The source index over (b, i, d) with coordinate j on the reduced axis is (b, i, j, d). -/
theorem ref_entity_lift_ix (b : Fin 8) (i : Fin 256) (j : Fin 256) (d : Fin 64) :
    ref_entity_reduces.lift (ix3 b i d) j = ix4 b i j d := by
  funext a
  match a with
  | ⟨0, _⟩ => rfl
  | ⟨1, _⟩ => rfl
  | ⟨2, _⟩ => rfl
  | ⟨3, _⟩ => rfl

/-- The maximum over j, read at (b, i, d): the fold of max from −∞. -/
theorem ref_entity_v0_apply (x1 : (⟨S8x256x256x64, .f32⟩ : BufTy).Contents (Elt Ideal)) (b : Fin 8) (i : Fin 256) (d : Fin 64) :
    val_main_v0 (F := Ideal) x1 (ix3 b i d)
      = (Finset.univ : Finset (Fin 256)).fold max negInf (fun j => x1 (ix4 b i j d)) := by
  unfold val_main_v0
  refine (Host.reduce_eq_fold_single (FloatOps.maximumf (F := Ideal) (φ := .f32)) x1 (val_main_cst (F := Ideal))
    reducesTo_S8x256x256x64_S8x256x64_d2 ref_entity_reduces h_S_ (ix3 b i d)).trans ?_
  refine congrArg (fun f => (Finset.univ : Finset (Fin 256)).fold max negInf f) (funext fun j => ?_)
  exact congrArg x1 (ref_entity_lift_ix b i j d)

/-- The minimum over j, read at (b, i, d): the fold of min from +∞. -/
theorem ref_entity_v1_apply (x1 : (⟨S8x256x256x64, .f32⟩ : BufTy).Contents (Elt Ideal)) (b : Fin 8) (i : Fin 256) (d : Fin 64) :
    val_main_v1 (F := Ideal) x1 (ix3 b i d)
      = (Finset.univ : Finset (Fin 256)).fold min posInf (fun j => x1 (ix4 b i j d)) := by
  unfold val_main_v1
  refine (Host.reduce_eq_fold_single (FloatOps.minimumf (F := Ideal) (φ := .f32)) x1 (val_main_cst_0 (F := Ideal))
    reducesTo_S8x256x256x64_S8x256x64_d2 ref_entity_reduces h_S_ (ix3 b i d)).trans ?_
  refine congrArg (fun f => (Finset.univ : Finset (Fin 256)).fold min posInf f) (funext fun j => ?_)
  exact congrArg x1 (ref_entity_lift_ix b i j d)

/-- The three blocks side by side along the feature axis, read at (b, i, k): block ⌊k / 64⌋ at (b, i, k mod 64). -/
theorem ref_entity_cat_0 (A B C : S8x256x64.Idx → EReal) (b : Fin 8) (i : Fin 256) (k : Fin 192) (hk : k.val < 64) :
    concatenate S8x256x192 2 [⟨S8x256x64, A⟩, ⟨S8x256x64, B⟩, ⟨S8x256x64, C⟩]
        concatenates_S8x256x64_S8x256x64_S8x256x64_S8x256x192_d2 (ix3 b i k)
      = A (ix3 b i ⟨k.val, hk⟩) :=
  concatenate_apply_piece (t := S8x256x192) 2 [⟨S8x256x64, A⟩, ⟨S8x256x64, B⟩, ⟨S8x256x64, C⟩]
    concatenates_S8x256x64_S8x256x64_S8x256x64_S8x256x192_d2 (ix3 b i k) 0 (Nat.zero_lt_succ _) S8x256x64 A rfl rfl 0 rfl
    (ix3 b i ⟨k.val, hk⟩)
    (fun c => match c with | ⟨0, _⟩ => fun _ => rfl | ⟨1, _⟩ => fun _ => rfl | ⟨2, _⟩ => fun hne => absurd rfl hne)
    (Nat.zero_add _)

theorem ref_entity_cat_1 (A B C : S8x256x64.Idx → EReal) (b : Fin 8) (i : Fin 256) (k : Fin 192) (h₁ : ¬ k.val < 64)
    (h₂ : k.val < 128) :
    concatenate S8x256x192 2 [⟨S8x256x64, A⟩, ⟨S8x256x64, B⟩, ⟨S8x256x64, C⟩]
        concatenates_S8x256x64_S8x256x64_S8x256x64_S8x256x192_d2 (ix3 b i k)
      = B (ix3 b i ⟨k.val - 64, by omega⟩) :=
  concatenate_apply_piece (t := S8x256x192) 2 [⟨S8x256x64, A⟩, ⟨S8x256x64, B⟩, ⟨S8x256x64, C⟩]
    concatenates_S8x256x64_S8x256x64_S8x256x64_S8x256x192_d2 (ix3 b i k) 1 (by show 1 < 3; omega) S8x256x64 B rfl rfl 64 rfl
    (ix3 b i ⟨k.val - 64, by omega⟩)
    (fun c => match c with | ⟨0, _⟩ => fun _ => rfl | ⟨1, _⟩ => fun _ => rfl | ⟨2, _⟩ => fun hne => absurd rfl hne)
    (show 64 + (k.val - 64) = k.val by omega)

theorem ref_entity_cat_2 (A B C : S8x256x64.Idx → EReal) (b : Fin 8) (i : Fin 256) (k : Fin 192) (h₂ : ¬ k.val < 128) :
    concatenate S8x256x192 2 [⟨S8x256x64, A⟩, ⟨S8x256x64, B⟩, ⟨S8x256x64, C⟩]
        concatenates_S8x256x64_S8x256x64_S8x256x64_S8x256x192_d2 (ix3 b i k)
      = C (ix3 b i ⟨k.val - 128, by omega⟩) :=
  concatenate_apply_piece (t := S8x256x192) 2 [⟨S8x256x64, A⟩, ⟨S8x256x64, B⟩, ⟨S8x256x64, C⟩]
    concatenates_S8x256x64_S8x256x64_S8x256x64_S8x256x192_d2 (ix3 b i k) 2 (by show 2 < 3; omega) S8x256x64 C rfl rfl 128 rfl
    (ix3 b i ⟨k.val - 128, by omega⟩)
    (fun c => match c with | ⟨0, _⟩ => fun _ => rfl | ⟨1, _⟩ => fun _ => rfl | ⟨2, _⟩ => fun hne => absurd rfl hne)
    (show 128 + (k.val - 128) = k.val by omega)

/-- The reference's 192 features at (b, i) are the entity path's feature row. -/
theorem ref_entity_v2_apply (x0 : (⟨S8x256x64, .f32⟩ : BufTy).Contents (Elt Ideal))
    (x1 : (⟨S8x256x256x64, .f32⟩ : BufTy).Contents (Elt Ideal)) (b : Fin 8) (i : Fin 256) (k : Fin 192) :
    val_main_v2 (F := Ideal) x0 x1 (ix3 b i k)
      = rowEntity (fun d => x0 (ix3 b i d)) (fun j d => x1 (ix4 b i j d)) k := by
  unfold val_main_v2 rowEntity
  by_cases h₁ : k.val < 64
  · rw [dif_pos h₁]
    exact ref_entity_cat_0 _ _ _ b i k h₁
  · rw [dif_neg h₁]
    by_cases h₂ : k.val < 128
    · rw [dif_pos h₂]
      exact (ref_entity_cat_1 _ _ _ b i k h₁ h₂).trans (ref_entity_v0_apply x1 b i _)
    · rw [dif_neg h₂]
      exact (ref_entity_cat_2 _ _ _ b i k h₂).trans (ref_entity_v1_apply x1 b i _)

/-- The operand indices of the two products and of the two bias broadcasts, by coordinates. -/
theorem ref_entity_lidx13 (b : Fin 8) (i : Fin 256) (o : Fin 64) (k : Fin 128) :
    lidx_main_v13 (ix3 b i o) k = ix3 b i k :=
  funext fun a => by match a with | ⟨0, _⟩ => rfl | ⟨1, _⟩ => rfl | ⟨2, _⟩ => rfl
theorem ref_entity_ridx13 (b : Fin 8) (i : Fin 256) (o : Fin 64) (k : Fin 128) :
    ridx_main_v13 (ix3 b i o) k = ix2 k o :=
  funext fun a => by match a with | ⟨0, _⟩ => rfl | ⟨1, _⟩ => rfl
theorem ref_entity_lidx8 (b : Fin 8) (i : Fin 256) (h : Fin 128) (k : Fin 192) :
    lidx_main_v8 (ix3 b i h) k = ix3 b i k :=
  funext fun a => by match a with | ⟨0, _⟩ => rfl | ⟨1, _⟩ => rfl | ⟨2, _⟩ => rfl
theorem ref_entity_ridx8 (b : Fin 8) (i : Fin 256) (h : Fin 128) (k : Fin 192) :
    ridx_main_v8 (ix3 b i h) k = ix2 k h :=
  funext fun a => by match a with | ⟨0, _⟩ => rfl | ⟨1, _⟩ => rfl
theorem ref_entity_idx15 (b : Fin 8) (i : Fin 256) (o : Fin 64) :
    idx_main_v14 (idx_main_v15 (ix3 b i o)) = ix1 o :=
  funext fun a => by match a with | ⟨0, _⟩ => rfl
theorem ref_entity_idx10 (b : Fin 8) (i : Fin 256) (h : Fin 128) :
    idx_main_v9 (idx_main_v10 (ix3 b i h)) = ix1 h :=
  funext fun a => by match a with | ⟨0, _⟩ => rfl

/-- The reference's first result at (b, i, o): the perceptron of the feature row of (b, i). -/
theorem ref_entity_apply (x0 : (⟨S8x256x64, .f32⟩ : BufTy).Contents (Elt Ideal)) (x1 : (⟨S8x256x256x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (b : Fin 8) (i : Fin 256) (o : Fin 64) :
    val_main_v16 (F := Ideal) x0 x1 x2 x3 x4 x5 (ix3 b i o)
      = mlp x2 x3 x4 x5 (rowEntity (fun d => x0 (ix3 b i d)) (fun j d => x1 (ix4 b i j d))) o := by
  unfold mlp
  rw [val_main_v16_apply, val_main_v13_apply, val_main_v15_apply, val_main_v14_apply, ref_entity_idx15]
  refine congrArg₂ (· + ·) (Finset.sum_congr rfl fun h _ => ?_) rfl
  rw [ref_entity_lidx13, ref_entity_ridx13, val_main_v12_apply, val_main_v11_apply, val_main_v8_apply, val_main_v10_apply,
    val_main_v9_apply, ref_entity_idx10, val_main_call0_v0_apply, val_main_call0_cst_apply]
  refine congrArg (· * x4 (ix2 h o)) ?_
  refine congrArg₂ max ?_ Ideal.ofBits_zero_f32
  refine congrArg₂ (· + ·) (Finset.sum_congr rfl fun k _ => ?_) rfl
  rw [ref_entity_lidx8, ref_entity_ridx8, ref_entity_v2_apply]

theorem ref_entity (x0 : (⟨S8x256x64, .f32⟩ : BufTy).Contents (Elt Ideal)) (x1 : (⟨S8x256x256x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v16 (F := Ideal) x0 x1 x2 x3 x4 x5 = outEntity x0 x1 x2 x3 x4 x5 := by
  funext y
  obtain ⟨b, i, o, rfl⟩ : ∃ (b : Fin 8) (i : Fin 256) (o : Fin 64), y = ix3 b i o := ⟨y 0, y 1, y 2, eq_ix3 y⟩
  exact ref_entity_apply x0 x1 x2 x3 x4 x5 b i o

end Cert.ReferenceIdeal.Layer

end
-- ==== Proof.RefPair.lean ====
/-
  The reference's second result is the layer's pair-path function of the arguments (Spec.lean), index by index:
  broadcasting `emb1` along j, concatenating with `emb2`, transposing (i, j) and concatenating again lays the four
  blocks of 64 features side by side, and its two products with the biases and the relu are the perceptron.
-/
import proofs.«177152_j25348896981151_1_alg».proof.Proof.RefRun
import proofs.«177152_j25348896981151_1_alg».proof.Proof.RefRead
import proofs.«177152_j25348896981151_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Layer

open Idealize.ShloMosaic Idealize.ShloMosaic.ValueIdx Cert.ReferenceIdeal Cert.ReferenceIdeal.Gen Cert.ReferenceIdeal.Read Cert.Spec

/-! ## The reference's feature tensors read at explicit coordinates -/

/-- `emb1` broadcast along a new axis 2: entry (b, i, j, d) is `emb1` at (b, i, d). -/
theorem ref_pair_v4_apply (x0 : (⟨S8x256x64, .f32⟩ : BufTy).Contents (Elt Ideal)) (b : Fin 8) (i j : Fin 256) (d : Fin 64) :
    val_main_v4 (F := Ideal) x0 (ix4 b i j d) = x0 (ix3 b i d) := by
  refine (val_main_v4_apply x0 _).trans ?_
  refine (val_main_v3_apply x0 _).trans ?_
  exact congrArg x0 (funext fun a => Fin.ext (by
    match a with
    | ⟨0, _⟩ => rfl
    | ⟨1, _⟩ => rfl
    | ⟨2, _⟩ => rfl))

/-- The 128-feature tensor below feature 64: the broadcast `emb1`. -/
theorem ref_pair_v5_apply_lo (x0 : (⟨S8x256x64, .f32⟩ : BufTy).Contents (Elt Ideal)) (x1 : (⟨S8x256x256x64, .f32⟩ : BufTy).Contents (Elt Ideal))
    (b : Fin 8) (i j : Fin 256) (k : Fin 128) (d : Fin 64) (hd : d.val = k.val) :
    val_main_v5 (F := Ideal) x0 x1 (ix4 b i j k) = x0 (ix3 b i d) := by
  unfold val_main_v5
  refine (concatenate_pair_apply_left (t := S8x256x256x128) (s₁ := S8x256x256x64) (s₂ := S8x256x256x64) 3 (val_main_v4 (F := Ideal) x0) x1 _
    (ix4 b i j k) rfl (ix4 b i j d) (fun a => ?_)).trans (ref_pair_v4_apply x0 b i j d)
  match a with
  | ⟨0, _⟩ => rfl
  | ⟨1, _⟩ => rfl
  | ⟨2, _⟩ => rfl
  | ⟨3, _⟩ => exact hd

/-- The 128-feature tensor from feature 64 on: `emb2`, 64 features back. -/
theorem ref_pair_v5_apply_hi (x0 : (⟨S8x256x64, .f32⟩ : BufTy).Contents (Elt Ideal)) (x1 : (⟨S8x256x256x64, .f32⟩ : BufTy).Contents (Elt Ideal))
    (b : Fin 8) (i j : Fin 256) (k : Fin 128) (d : Fin 64) (hd : d.val + 64 = k.val) :
    val_main_v5 (F := Ideal) x0 x1 (ix4 b i j k) = x1 (ix4 b i j d) := by
  unfold val_main_v5
  refine concatenate_pair_apply_right (t := S8x256x256x128) (s₁ := S8x256x256x64) (s₂ := S8x256x256x64) 3 (val_main_v4 (F := Ideal) x0) x1 _
    (ix4 b i j k) rfl rfl (ix4 b i j d) (fun a ha => ?_) hd
  match a with
  | ⟨0, _⟩ => rfl
  | ⟨1, _⟩ => rfl
  | ⟨2, _⟩ => rfl
  | ⟨3, _⟩ => exact absurd rfl ha

/-- The transposed 128-feature tensor at (b, i, j, k) is the tensor itself at (b, j, i, k). -/
theorem ref_pair_v6_apply (x0 : (⟨S8x256x64, .f32⟩ : BufTy).Contents (Elt Ideal)) (x1 : (⟨S8x256x256x64, .f32⟩ : BufTy).Contents (Elt Ideal))
    (b : Fin 8) (i j : Fin 256) (k : Fin 128) :
    val_main_v6 (F := Ideal) x0 x1 (ix4 b i j k) = val_main_v5 (F := Ideal) x0 x1 (ix4 b j i k) := by
  refine (val_main_v6_apply x0 x1 _).trans ?_
  exact congrArg (val_main_v5 (F := Ideal) x0 x1) (funext fun a => Fin.ext (by
    match a with
    | ⟨0, _⟩ => rfl
    | ⟨1, _⟩ => rfl
    | ⟨2, _⟩ => rfl
    | ⟨3, _⟩ => rfl))

/-- The 256-feature tensor at (b, i, j, k) is the pair path's feature row: `emb1` at j, `emb2` at (j, i), `emb1` at i and
    `emb2` at (i, j), 64 features each. -/
theorem ref_pair_v7_apply (x0 : (⟨S8x256x64, .f32⟩ : BufTy).Contents (Elt Ideal)) (x1 : (⟨S8x256x256x64, .f32⟩ : BufTy).Contents (Elt Ideal))
    (b : Fin 8) (i j : Fin 256) (k : Fin 256) :
    val_main_v7 (F := Ideal) x0 x1 (ix4 b i j k)
      = rowPair (fun d => x0 (ix3 b j d)) (fun d => x1 (ix4 b j i d)) (fun d => x0 (ix3 b i d)) (fun d => x1 (ix4 b i j d)) k := by
  have hoff : ∀ (q : Fin 128) (a : Fin S8x256x256x128.rank), a.cast (rfl : S8x256x256x128.rank = S8x256x256x256.rank) ≠ (3 : Fin S8x256x256x256.rank) →
      ((ix4 b i j q : S8x256x256x128.Idx) a).val = ((ix4 b i j k : S8x256x256x256.Idx) (a.cast rfl)).val := fun q a ha => by
    match a with
    | ⟨0, _⟩ => rfl
    | ⟨1, _⟩ => rfl
    | ⟨2, _⟩ => rfl
    | ⟨3, _⟩ => exact absurd rfl ha
  unfold val_main_v7 rowPair
  by_cases h1 : k.val < 64
  · rw [dif_pos h1]
    refine (concatenate_pair_apply_left (t := S8x256x256x256) (s₁ := S8x256x256x128) (s₂ := S8x256x256x128) 3
      (val_main_v6 (F := Ideal) x0 x1) (val_main_v5 (F := Ideal) x0 x1) _ (ix4 b i j k) rfl (ix4 b i j ⟨k.val, by omega⟩) (fun a => ?_)).trans ?_
    · match a with
      | ⟨0, _⟩ => rfl
      | ⟨1, _⟩ => rfl
      | ⟨2, _⟩ => rfl
      | ⟨3, _⟩ => rfl
    · exact (ref_pair_v6_apply x0 x1 b i j _).trans (ref_pair_v5_apply_lo x0 x1 b j i _ ⟨k.val, h1⟩ rfl)
  · rw [dif_neg h1]
    by_cases h2 : k.val < 128
    · rw [dif_pos h2]
      refine (concatenate_pair_apply_left (t := S8x256x256x256) (s₁ := S8x256x256x128) (s₂ := S8x256x256x128) 3
        (val_main_v6 (F := Ideal) x0 x1) (val_main_v5 (F := Ideal) x0 x1) _ (ix4 b i j k) rfl (ix4 b i j ⟨k.val, h2⟩) (fun a => ?_)).trans ?_
      · match a with
        | ⟨0, _⟩ => rfl
        | ⟨1, _⟩ => rfl
        | ⟨2, _⟩ => rfl
        | ⟨3, _⟩ => rfl
      · exact (ref_pair_v6_apply x0 x1 b i j _).trans
          (ref_pair_v5_apply_hi x0 x1 b j i _ ⟨k.val - 64, by omega⟩ (by show k.val - 64 + 64 = k.val; omega))
    · rw [dif_neg h2]
      have hk := k.isLt
      by_cases h3 : k.val < 192
      · rw [dif_pos h3]
        refine (concatenate_pair_apply_right (t := S8x256x256x256) (s₁ := S8x256x256x128) (s₂ := S8x256x256x128) 3
          (val_main_v6 (F := Ideal) x0 x1) (val_main_v5 (F := Ideal) x0 x1) _ (ix4 b i j k) rfl rfl (ix4 b i j ⟨k.val - 128, by omega⟩)
          (hoff _) (by show k.val - 128 + 128 = k.val; omega)).trans ?_
        exact ref_pair_v5_apply_lo x0 x1 b i j _ ⟨k.val - 128, by omega⟩ rfl
      · rw [dif_neg h3]
        refine (concatenate_pair_apply_right (t := S8x256x256x256) (s₁ := S8x256x256x128) (s₂ := S8x256x256x128) 3
          (val_main_v6 (F := Ideal) x0 x1) (val_main_v5 (F := Ideal) x0 x1) _ (ix4 b i j k) rfl rfl (ix4 b i j ⟨k.val - 128, by omega⟩)
          (hoff _) (by show k.val - 128 + 128 = k.val; omega)).trans ?_
        exact ref_pair_v5_apply_hi x0 x1 b i j _ ⟨k.val - 192, by omega⟩ (by show k.val - 192 + 64 = k.val - 128; omega)

/-! ## The biases and the relu's zero read at explicit coordinates -/

/-- The first bias broadcast over (b, i, j): at (b, i, j, h) it is the bias at h. -/
theorem ref_pair_v19_apply (x7 : (⟨S256, .f32⟩ : BufTy).Contents (Elt Ideal)) (b : Fin 8) (i j : Fin 256) (h : Fin 256) :
    val_main_v19 (F := Ideal) x7 (ix4 b i j h) = x7 (ix1 h) := by
  refine (val_main_v19_apply x7 _).trans ?_
  refine (val_main_v18_apply x7 _).trans ?_
  exact congrArg x7 (funext fun a => Fin.ext (by
    match a with
    | ⟨0, _⟩ => rfl))

/-- The second bias broadcast over (b, i, j): at (b, i, j, o) it is the bias at o. -/
theorem ref_pair_v24_apply (x9 : (⟨S64, .f32⟩ : BufTy).Contents (Elt Ideal)) (b : Fin 8) (i j : Fin 256) (o : Fin 64) :
    val_main_v24 (F := Ideal) x9 (ix4 b i j o) = x9 (ix1 o) := by
  refine (val_main_v24_apply x9 _).trans ?_
  refine (val_main_v23_apply x9 _).trans ?_
  exact congrArg x9 (funext fun a => Fin.ext (by
    match a with
    | ⟨0, _⟩ => rfl))

/-- The relu's other operand is zero everywhere. -/
theorem ref_pair_zero_apply (y : S8x256x256x256.Idx) : val_main_call1_v0 (F := Ideal) y = 0 := by
  refine (val_main_call1_v0_apply y).trans ?_
  refine (val_main_call1_cst_apply _).trans ?_
  exact Ideal.ofBits_zero_f32

/-! ## The reference's second result is the pair path's function -/

theorem ref_pair (x0 : (⟨S8x256x64, .f32⟩ : BufTy).Contents (Elt Ideal)) (x1 : (⟨S8x256x256x64, .f32⟩ : BufTy).Contents (Elt Ideal))
    (x6 : (⟨S256x256, .f32⟩ : BufTy).Contents (Elt Ideal)) (x7 : (⟨S256, .f32⟩ : BufTy).Contents (Elt Ideal))
    (x8 : (⟨S256x64, .f32⟩ : BufTy).Contents (Elt Ideal)) (x9 : (⟨S64, .f32⟩ : BufTy).Contents (Elt Ideal)) :
    val_main_v25 (F := Ideal) x0 x1 x6 x7 x8 x9 = outPair x0 x1 x6 x7 x8 x9 := by
  funext y
  obtain ⟨b, i, j, o, rfl⟩ : ∃ (b : Fin 8) (i j : Fin 256) (o : Fin 64), y = ix4 b i j o := ⟨y 0, y 1, y 2, y 3, eq_ix4 y⟩
  show val_main_v25 (F := Ideal) x0 x1 x6 x7 x8 x9 (ix4 b i j o)
    = mlp x6 x7 x8 x9 (rowPair (fun d => x0 (ix3 b j d)) (fun d => x1 (ix4 b j i d)) (fun d => x0 (ix3 b i d)) (fun d => x1 (ix4 b i j d))) o
  unfold mlp
  refine (val_main_v25_apply x0 x1 x6 x7 x8 x9 _).trans ?_
  refine (Ideal.addf_def _ _).trans ?_
  refine congrArg₂ (· + ·) ?_ (ref_pair_v24_apply x9 b i j o)
  -- the second product, over the 256 hidden units
  refine (val_main_v22_apply x0 x1 x6 x7 x8 _).trans ?_
  refine Finset.sum_congr rfl fun h _ => ?_
  have el : lidx_main_v22 (ix4 b i j o) h = ix4 b i j h := funext fun a => Fin.ext (by
    match a with
    | ⟨0, _⟩ => rfl
    | ⟨1, _⟩ => rfl
    | ⟨2, _⟩ => rfl
    | ⟨3, _⟩ => rfl)
  have er : ridx_main_v22 (ix4 b i j o) h = ix2 h o := funext fun a => Fin.ext (by
    match a with
    | ⟨0, _⟩ => rfl
    | ⟨1, _⟩ => rfl)
  rw [el, er]
  refine congrArg₂ (· * ·) ?_ rfl
  -- relu of the first product plus its bias
  refine (val_main_v21_apply x0 x1 x6 x7 _).trans ?_
  refine (Ideal.maximumf_def _ _).trans ?_
  refine congrArg₂ max ?_ (ref_pair_zero_apply _)
  refine (val_main_v20_apply x0 x1 x6 x7 _).trans ?_
  refine (Ideal.addf_def _ _).trans ?_
  refine congrArg₂ (· + ·) ?_ (ref_pair_v19_apply x7 b i j h)
  -- the first product, over the 256 features
  refine (val_main_v17_apply x0 x1 x6 _).trans ?_
  refine Finset.sum_congr rfl fun k _ => ?_
  have el' : lidx_main_v17 (ix4 b i j h) k = ix4 b i j k := funext fun a => Fin.ext (by
    match a with
    | ⟨0, _⟩ => rfl
    | ⟨1, _⟩ => rfl
    | ⟨2, _⟩ => rfl
    | ⟨3, _⟩ => rfl)
  have er' : ridx_main_v17 (ix4 b i j h) k = ix2 k h := funext fun a => Fin.ext (by
    match a with
    | ⟨0, _⟩ => rfl
    | ⟨1, _⟩ => rfl)
  rw [el', er']
  exact congrArg₂ (· * ·) (ref_pair_v7_apply x0 x1 b i j k) rfl

end Cert.ReferenceIdeal.Layer

end
-- ==== Proof.lean ====
/-
  The certificate of the fused encoder layer against its jnp reference: the two programs' frames, the reference's
  frame, nothing to preserve (the idealization rewrote no operation), and, at the ideal instance, equal results — both
  programs end with the layer's two functions of the arguments (Proof/Spec.lean): a two-layer perceptron of, per entity,
  its features beside the feature-wise maximum and minimum of its pair features, and, per ordered pair (i, j), the
  features of j, of (j, i), of i and of (i, j) side by side.  The parts: Proof/Assembly.lean (the five claims from the
  runs), Proof/PayEntity.lean and Proof/PayPair.lean (a tile of the kernel at one entry), Proof/RefEntity.lean and
  Proof/RefPair.lean (the reference's two results, index by index).
-/
import proofs.«177152_j25348896981151_1_alg».proof.Proof.Assembly
import proofs.«177152_j25348896981151_1_alg».proof.Proof.PayEntity
import proofs.«177152_j25348896981151_1_alg».proof.Proof.PayPair
import proofs.«177152_j25348896981151_1_alg».proof.Proof.RefEntity
import proofs.«177152_j25348896981151_1_alg».proof.Proof.RefPair

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_p, Parts.frame_pi, Parts.frame_ri, Parts.preserves,
    Parts.algebraic_of (fun x0 x2 x4 x5 x6 x7 r o => Cert.KernelIdeal.Tile.pay_entity x0 x2 x4 x5 x6 x7 r o)
      (fun x0 x1 x2 x3 x8 x9 x10 x11 r j o => Cert.KernelIdeal.Tile.pay_pair x0 x1 x2 x3 x8 x9 x10 x11 r j o)
      (fun x0 x1 x2 x3 x4 x5 => Cert.ReferenceIdeal.Layer.ref_entity x0 x1 x2 x3 x4 x5)
      (fun x0 x1 x6 x7 x8 x9 => Cert.ReferenceIdeal.Layer.ref_pair x0 x1 x6 x7 x8 x9)⟩

end Cert.Proof

end
